-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x131072 : Shape := ⟨2, ![10, 131072]⟩
abbrev S10x128 : Shape := ⟨2, ![10, 128]⟩
abbrev S10x128x1 : Shape := ⟨3, ![10, 128, 1]⟩
abbrev S10x128x128 : Shape := ⟨3, ![10, 128, 128]⟩
abbrev S1280x128 : Shape := ⟨2, ![1280, 128]⟩
abbrev S131072x128 : Shape := ⟨2, ![131072, 128]⟩
abbrev S10x4096 : Shape := ⟨2, ![10, 4096]⟩
abbrev S4096x128 : Shape := ⟨2, ![4096, 128]⟩
abbrev S1x128 : Shape := ⟨2, ![1, 128]⟩

abbrev nBuf : Space → Nat
  | .hbm => 9
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x131072, .f32⟩
  | .hbm, ⟨4, _⟩ => ⟨S10x128, .f32⟩
  | .hbm, ⟨5, _⟩ => ⟨S10x128x1, .f32⟩
  | .hbm, ⟨6, _⟩ => ⟨S10x128x128, .f32⟩
  | .hbm, ⟨7, _⟩ => ⟨S1280x128, .f32⟩
  | .hbm, ⟨8, _⟩ => ⟨S131072x128, .f32⟩
  | .local _ .vmem, ⟨0, _⟩ => ⟨S10x4096, .f32⟩
  | .local _ .vmem, ⟨1, _⟩ => ⟨S10x4096, .f32⟩
  | .local _ .vmem, ⟨2, _⟩ => ⟨S1280x128, .f32⟩
  | .local _ .vmem, ⟨3, _⟩ => ⟨S128x128, .f32⟩
  | .local _ .vmem, ⟨4, _⟩ => ⟨S4096x128, .f32⟩
  | .local _ .vmem, ⟨5, _⟩ => ⟨S4096x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S131072x10_S10x131072_1_0 : S131072x10.Transposes [1, 0] S10x131072
  transposes_S128x10_S10x128_1_0 : S128x10.Transposes [1, 0] S10x128
  bcast_S10x128_S10x128x1_0_1 : S10x128.BroadcastsInDim S10x128x1 (![0, 1] : Fin 2 → Fin S10x128x1.rank)
  bcast_S10x128x1_S10x128x128_0_1_2 : S10x128x1.BroadcastsInDim S10x128x128 (![0, 1, 2] : Fin 3 → Fin S10x128x128.rank)
  shapeCasts_S10x128x128_S1280x128 : S10x128x128.ShapeCasts S1280x128
  inb_S128x128_S128x128_0_0 : ∀ a, (![0, 0] : Fin 2 → Nat) a + S128x128.size a ≤ S128x128.size a
  h_S128x128 : 0 < S128x128.numel
  inb_S10x4096_S1x128_0_0 : ∀ a, (![0, 0] : Fin 2 → Nat) a + S1x128.size a ≤ S10x4096.size a
  h_S1x128 : 0 < S1x128.numel
  shapeCasts_S1x128_S1x128 : S1x128.ShapeCasts S1x128
  inb_S1280x128_S128x128_0_0 : ∀ a, (![0, 0] : Fin 2 → Nat) a + S128x128.size a ≤ S1280x128.size a
  shapeCasts_S128x128_S128x128 : S128x128.ShapeCasts S128x128
  broadcasts_S1x128_S128x128 : S1x128.Broadcasts S128x128
  inb_S10x4096_S1x128_1_0 : ∀ a, (![1, 0] : Fin 2 → Nat) a + S1x128.size a ≤ S10x4096.size a
  inb_S1280x128_S128x128_128_0 : ∀ a, (![128, 0] : Fin 2 → Nat) a + S128x128.size a ≤ S1280x128.size a
  inb_S10x4096_S1x128_2_0 : ∀ a, (![2, 0] : Fin 2 → Nat) a + S1x128.size a ≤ S10x4096.size a
  inb_S1280x128_S128x128_256_0 : ∀ a, (![256, 0] : Fin 2 → Nat) a + S128x128.size a ≤ S1280x128.size a
  inb_S10x4096_S1x128_3_0 : ∀ a, (![3, 0] : Fin 2 → Nat) a + S1x128.size a ≤ S10x4096.size a
  inb_S1280x128_S128x128_384_0 : ∀ a, (![384, 0] : Fin 2 → Nat) a + S128x128.size a ≤ S1280x128.size a
  inb_S10x4096_S1x128_4_0 : ∀ a, (![4, 0] : Fin 2 → Nat) a + S1x128.size a ≤ S10x4096.size a
  inb_S1280x128_S128x128_512_0 : ∀ a, (![512, 0] : Fin 2 → Nat) a + S128x128.size a ≤ S1280x128.size a
  inb_S10x4096_S1x128_5_0 : ∀ a, (![5, 0] : Fin 2 → Nat) a + S1x128.size a ≤ S10x4096.size a
  inb_S1280x128_S128x128_640_0 : ∀ a, (![640, 0] : Fin 2 → Nat) a + S128x128.size a ≤ S1280x128.size a
  inb_S10x4096_S1x128_6_0 : ∀ a, (![6, 0] : Fin 2 → Nat) a + S1x128.size a ≤ S10x4096.size a
  inb_S1280x128_S128x128_768_0 : ∀ a, (![768, 0] : Fin 2 → Nat) a + S128x128.size a ≤ S1280x128.size a
  inb_S10x4096_S1x128_7_0 : ∀ a, (![7, 0] : Fin 2 → Nat) a + S1x128.size a ≤ S10x4096.size a
  inb_S1280x128_S128x128_896_0 : ∀ a, (![896, 0] : Fin 2 → Nat) a + S128x128.size a ≤ S1280x128.size a
  inb_S10x4096_S1x128_8_0 : ∀ a, (![8, 0] : Fin 2 → Nat) a + S1x128.size a ≤ S10x4096.size a
  inb_S1280x128_S128x128_1024_0 : ∀ a, (![1024, 0] : Fin 2 → Nat) a + S128x128.size a ≤ S1280x128.size a
  inb_S10x4096_S1x128_9_0 : ∀ a, (![9, 0] : Fin 2 → Nat) a + S1x128.size a ≤ S10x4096.size a
  inb_S1280x128_S128x128_1152_0 : ∀ a, (![1152, 0] : Fin 2 → Nat) a + S128x128.size a ≤ S1280x128.size a
  inb_S4096x128_S128x128_0_0 : ∀ a, (![0, 0] : Fin 2 → Nat) a + S128x128.size a ≤ S4096x128.size a
  inb_S10x4096_S1x128_0_128 : ∀ a, (![0, 128] : Fin 2 → Nat) a + S1x128.size a ≤ S10x4096.size a
  inb_S10x4096_S1x128_1_128 : ∀ a, (![1, 128] : Fin 2 → Nat) a + S1x128.size a ≤ S10x4096.size a
  inb_S10x4096_S1x128_2_128 : ∀ a, (![2, 128] : Fin 2 → Nat) a + S1x128.size a ≤ S10x4096.size a
  inb_S10x4096_S1x128_3_128 : ∀ a, (![3, 128] : Fin 2 → Nat) a + S1x128.size a ≤ S10x4096.size a
  inb_S10x4096_S1x128_4_128 : ∀ a, (![4, 128] : Fin 2 → Nat) a + S1x128.size a ≤ S10x4096.size a
  inb_S10x4096_S1x128_5_128 : ∀ a, (![5, 128] : Fin 2 → Nat) a + S1x128.size a ≤ S10x4096.size a
  inb_S10x4096_S1x128_6_128 : ∀ a, (![6, 128] : Fin 2 → Nat) a + S1x128.size a ≤ S10x4096.size a
  inb_S10x4096_S1x128_7_128 : ∀ a, (![7, 128] : Fin 2 → Nat) a + S1x128.size a ≤ S10x4096.size a
  inb_S10x4096_S1x128_8_128 : ∀ a, (![8, 128] : Fin 2 → Nat) a + S1x128.size a ≤ S10x4096.size a
  inb_S10x4096_S1x128_9_128 : ∀ a, (![9, 128] : Fin 2 → Nat) a + S1x128.size a ≤ S10x4096.size a
  inb_S4096x128_S128x128_128_0 : ∀ a, (![128, 0] : Fin 2 → Nat) a + S128x128.size a ≤ S4096x128.size a
  inb_S10x4096_S1x128_0_256 : ∀ a, (![0, 256] : Fin 2 → Nat) a + S1x128.size a ≤ S10x4096.size a
  inb_S10x4096_S1x128_1_256 : ∀ a, (![1, 256] : Fin 2 → Nat) a + S1x128.size a ≤ S10x4096.size a
  inb_S10x4096_S1x128_2_256 : ∀ a, (![2, 256] : Fin 2 → Nat) a + S1x128.size a ≤ S10x4096.size a
  inb_S10x4096_S1x128_3_256 : ∀ a, (![3, 256] : Fin 2 → Nat) a + S1x128.size a ≤ S10x4096.size a
  inb_S10x4096_S1x128_4_256 : ∀ a, (![4, 256] : Fin 2 → Nat) a + S1x128.size a ≤ S10x4096.size a
  inb_S10x4096_S1x128_5_256 : ∀ a, (![5, 256] : Fin 2 → Nat) a + S1x128.size a ≤ S10x4096.size a
  inb_S10x4096_S1x128_6_256 : ∀ a, (![6, 256] : Fin 2 → Nat) a + S1x128.size a ≤ S10x4096.size a
  inb_S10x4096_S1x128_7_256 : ∀ a, (![7, 256] : Fin 2 → Nat) a + S1x128.size a ≤ S10x4096.size a
  inb_S10x4096_S1x128_8_256 : ∀ a, (![8, 256] : Fin 2 → Nat) a + S1x128.size a ≤ S10x4096.size a
  inb_S10x4096_S1x128_9_256 : ∀ a, (![9, 256] : Fin 2 → Nat) a + S1x128.size a ≤ S10x4096.size a
  inb_S4096x128_S128x128_256_0 : ∀ a, (![256, 0] : Fin 2 → Nat) a + S128x128.size a ≤ S4096x128.size a
  inb_S10x4096_S1x128_0_384 : ∀ a, (![0, 384] : Fin 2 → Nat) a + S1x128.size a ≤ S10x4096.size a
  inb_S10x4096_S1x128_1_384 : ∀ a, (![1, 384] : Fin 2 → Nat) a + S1x128.size a ≤ S10x4096.size a
  inb_S10x4096_S1x128_2_384 : ∀ a, (![2, 384] : Fin 2 → Nat) a + S1x128.size a ≤ S10x4096.size a
  inb_S10x4096_S1x128_3_384 : ∀ a, (![3, 384] : Fin 2 → Nat) a + S1x128.size a ≤ S10x4096.size a
  inb_S10x4096_S1x128_4_384 : ∀ a, (![4, 384] : Fin 2 → Nat) a + S1x128.size a ≤ S10x4096.size a
  inb_S10x4096_S1x128_5_384 : ∀ a, (![5, 384] : Fin 2 → Nat) a + S1x128.size a ≤ S10x4096.size a
  inb_S10x4096_S1x128_6_384 : ∀ a, (![6, 384] : Fin 2 → Nat) a + S1x128.size a ≤ S10x4096.size a
  inb_S10x4096_S1x128_7_384 : ∀ a, (![7, 384] : Fin 2 → Nat) a + S1x128.size a ≤ S10x4096.size a
  inb_S10x4096_S1x128_8_384 : ∀ a, (![8, 384] : Fin 2 → Nat) a + S1x128.size a ≤ S10x4096.size a
  inb_S10x4096_S1x128_9_384 : ∀ a, (![9, 384] : Fin 2 → Nat) a + S1x128.size a ≤ S10x4096.size a
  inb_S4096x128_S128x128_384_0 : ∀ a, (![384, 0] : Fin 2 → Nat) a + S128x128.size a ≤ S4096x128.size a
  inb_S10x4096_S1x128_0_512 : ∀ a, (![0, 512] : Fin 2 → Nat) a + S1x128.size a ≤ S10x4096.size a
  inb_S10x4096_S1x128_1_512 : ∀ a, (![1, 512] : Fin 2 → Nat) a + S1x128.size a ≤ S10x4096.size a
  inb_S10x4096_S1x128_2_512 : ∀ a, (![2, 512] : Fin 2 → Nat) a + S1x128.size a ≤ S10x4096.size a
  inb_S10x4096_S1x128_3_512 : ∀ a, (![3, 512] : Fin 2 → Nat) a + S1x128.size a ≤ S10x4096.size a
  inb_S10x4096_S1x128_4_512 : ∀ a, (![4, 512] : Fin 2 → Nat) a + S1x128.size a ≤ S10x4096.size a
  inb_S10x4096_S1x128_5_512 : ∀ a, (![5, 512] : Fin 2 → Nat) a + S1x128.size a ≤ S10x4096.size a
  inb_S10x4096_S1x128_6_512 : ∀ a, (![6, 512] : Fin 2 → Nat) a + S1x128.size a ≤ S10x4096.size a
  inb_S10x4096_S1x128_7_512 : ∀ a, (![7, 512] : Fin 2 → Nat) a + S1x128.size a ≤ S10x4096.size a
  inb_S10x4096_S1x128_8_512 : ∀ a, (![8, 512] : Fin 2 → Nat) a + S1x128.size a ≤ S10x4096.size a
  inb_S10x4096_S1x128_9_512 : ∀ a, (![9, 512] : Fin 2 → Nat) a + S1x128.size a ≤ S10x4096.size a
  inb_S4096x128_S128x128_512_0 : ∀ a, (![512, 0] : Fin 2 → Nat) a + S128x128.size a ≤ S4096x128.size a
  inb_S10x4096_S1x128_0_640 : ∀ a, (![0, 640] : Fin 2 → Nat) a + S1x128.size a ≤ S10x4096.size a
  inb_S10x4096_S1x128_1_640 : ∀ a, (![1, 640] : Fin 2 → Nat) a + S1x128.size a ≤ S10x4096.size a
  inb_S10x4096_S1x128_2_640 : ∀ a, (![2, 640] : Fin 2 → Nat) a + S1x128.size a ≤ S10x4096.size a
  inb_S10x4096_S1x128_3_640 : ∀ a, (![3, 640] : Fin 2 → Nat) a + S1x128.size a ≤ S10x4096.size a
  inb_S10x4096_S1x128_4_640 : ∀ a, (![4, 640] : Fin 2 → Nat) a + S1x128.size a ≤ S10x4096.size a
  inb_S10x4096_S1x128_5_640 : ∀ a, (![5, 640] : Fin 2 → Nat) a + S1x128.size a ≤ S10x4096.size a
  inb_S10x4096_S1x128_6_640 : ∀ a, (![6, 640] : Fin 2 → Nat) a + S1x128.size a ≤ S10x4096.size a
  inb_S10x4096_S1x128_7_640 : ∀ a, (![7, 640] : Fin 2 → Nat) a + S1x128.size a ≤ S10x4096.size a
  inb_S10x4096_S1x128_8_640 : ∀ a, (![8, 640] : Fin 2 → Nat) a + S1x128.size a ≤ S10x4096.size a
  inb_S10x4096_S1x128_9_640 : ∀ a, (![9, 640] : Fin 2 → Nat) a + S1x128.size a ≤ S10x4096.size a
  inb_S4096x128_S128x128_640_0 : ∀ a, (![640, 0] : Fin 2 → Nat) a + S128x128.size a ≤ S4096x128.size a
  inb_S10x4096_S1x128_0_768 : ∀ a, (![0, 768] : Fin 2 → Nat) a + S1x128.size a ≤ S10x4096.size a
  inb_S10x4096_S1x128_1_768 : ∀ a, (![1, 768] : Fin 2 → Nat) a + S1x128.size a ≤ S10x4096.size a
  inb_S10x4096_S1x128_2_768 : ∀ a, (![2, 768] : Fin 2 → Nat) a + S1x128.size a ≤ S10x4096.size a
  inb_S10x4096_S1x128_3_768 : ∀ a, (![3, 768] : Fin 2 → Nat) a + S1x128.size a ≤ S10x4096.size a
  inb_S10x4096_S1x128_4_768 : ∀ a, (![4, 768] : Fin 2 → Nat) a + S1x128.size a ≤ S10x4096.size a
  inb_S10x4096_S1x128_5_768 : ∀ a, (![5, 768] : Fin 2 → Nat) a + S1x128.size a ≤ S10x4096.size a
  inb_S10x4096_S1x128_6_768 : ∀ a, (![6, 768] : Fin 2 → Nat) a + S1x128.size a ≤ S10x4096.size a
  inb_S10x4096_S1x128_7_768 : ∀ a, (![7, 768] : Fin 2 → Nat) a + S1x128.size a ≤ S10x4096.size a
  inb_S10x4096_S1x128_8_768 : ∀ a, (![8, 768] : Fin 2 → Nat) a + S1x128.size a ≤ S10x4096.size a
  inb_S10x4096_S1x128_9_768 : ∀ a, (![9, 768] : Fin 2 → Nat) a + S1x128.size a ≤ S10x4096.size a
  inb_S4096x128_S128x128_768_0 : ∀ a, (![768, 0] : Fin 2 → Nat) a + S128x128.size a ≤ S4096x128.size a
  inb_S10x4096_S1x128_0_896 : ∀ a, (![0, 896] : Fin 2 → Nat) a + S1x128.size a ≤ S10x4096.size a
  inb_S10x4096_S1x128_1_896 : ∀ a, (![1, 896] : Fin 2 → Nat) a + S1x128.size a ≤ S10x4096.size a
  inb_S10x4096_S1x128_2_896 : ∀ a, (![2, 896] : Fin 2 → Nat) a + S1x128.size a ≤ S10x4096.size a
  inb_S10x4096_S1x128_3_896 : ∀ a, (![3, 896] : Fin 2 → Nat) a + S1x128.size a ≤ S10x4096.size a
  inb_S10x4096_S1x128_4_896 : ∀ a, (![4, 896] : Fin 2 → Nat) a + S1x128.size a ≤ S10x4096.size a
  inb_S10x4096_S1x128_5_896 : ∀ a, (![5, 896] : Fin 2 → Nat) a + S1x128.size a ≤ S10x4096.size a
  inb_S10x4096_S1x128_6_896 : ∀ a, (![6, 896] : Fin 2 → Nat) a + S1x128.size a ≤ S10x4096.size a
  inb_S10x4096_S1x128_7_896 : ∀ a, (![7, 896] : Fin 2 → Nat) a + S1x128.size a ≤ S10x4096.size a
  inb_S10x4096_S1x128_8_896 : ∀ a, (![8, 896] : Fin 2 → Nat) a + S1x128.size a ≤ S10x4096.size a
  inb_S10x4096_S1x128_9_896 : ∀ a, (![9, 896] : Fin 2 → Nat) a + S1x128.size a ≤ S10x4096.size a
  inb_S4096x128_S128x128_896_0 : ∀ a, (![896, 0] : Fin 2 → Nat) a + S128x128.size a ≤ S4096x128.size a
  inb_S10x4096_S1x128_0_1024 : ∀ a, (![0, 1024] : Fin 2 → Nat) a + S1x128.size a ≤ S10x4096.size a
  inb_S10x4096_S1x128_1_1024 : ∀ a, (![1, 1024] : Fin 2 → Nat) a + S1x128.size a ≤ S10x4096.size a
  inb_S10x4096_S1x128_2_1024 : ∀ a, (![2, 1024] : Fin 2 → Nat) a + S1x128.size a ≤ S10x4096.size a
  inb_S10x4096_S1x128_3_1024 : ∀ a, (![3, 1024] : Fin 2 → Nat) a + S1x128.size a ≤ S10x4096.size a
  inb_S10x4096_S1x128_4_1024 : ∀ a, (![4, 1024] : Fin 2 → Nat) a + S1x128.size a ≤ S10x4096.size a
  inb_S10x4096_S1x128_5_1024 : ∀ a, (![5, 1024] : Fin 2 → Nat) a + S1x128.size a ≤ S10x4096.size a
  inb_S10x4096_S1x128_6_1024 : ∀ a, (![6, 1024] : Fin 2 → Nat) a + S1x128.size a ≤ S10x4096.size a
  inb_S10x4096_S1x128_7_1024 : ∀ a, (![7, 1024] : Fin 2 → Nat) a + S1x128.size a ≤ S10x4096.size a
  inb_S10x4096_S1x128_8_1024 : ∀ a, (![8, 1024] : Fin 2 → Nat) a + S1x128.size a ≤ S10x4096.size a
  inb_S10x4096_S1x128_9_1024 : ∀ a, (![9, 1024] : Fin 2 → Nat) a + S1x128.size a ≤ S10x4096.size a
  inb_S4096x128_S128x128_1024_0 : ∀ a, (![1024, 0] : Fin 2 → Nat) a + S128x128.size a ≤ S4096x128.size a
  inb_S10x4096_S1x128_0_1152 : ∀ a, (![0, 1152] : Fin 2 → Nat) a + S1x128.size a ≤ S10x4096.size a
  inb_S10x4096_S1x128_1_1152 : ∀ a, (![1, 1152] : Fin 2 → Nat) a + S1x128.size a ≤ S10x4096.size a
  inb_S10x4096_S1x128_2_1152 : ∀ a, (![2, 1152] : Fin 2 → Nat) a + S1x128.size a ≤ S10x4096.size a
  inb_S10x4096_S1x128_3_1152 : ∀ a, (![3, 1152] : Fin 2 → Nat) a + S1x128.size a ≤ S10x4096.size a
  inb_S10x4096_S1x128_4_1152 : ∀ a, (![4, 1152] : Fin 2 → Nat) a + S1x128.size a ≤ S10x4096.size a
  inb_S10x4096_S1x128_5_1152 : ∀ a, (![5, 1152] : Fin 2 → Nat) a + S1x128.size a ≤ S10x4096.size a
  inb_S10x4096_S1x128_6_1152 : ∀ a, (![6, 1152] : Fin 2 → Nat) a + S1x128.size a ≤ S10x4096.size a
  inb_S10x4096_S1x128_7_1152 : ∀ a, (![7, 1152] : Fin 2 → Nat) a + S1x128.size a ≤ S10x4096.size a
  inb_S10x4096_S1x128_8_1152 : ∀ a, (![8, 1152] : Fin 2 → Nat) a + S1x128.size a ≤ S10x4096.size a
  inb_S10x4096_S1x128_9_1152 : ∀ a, (![9, 1152] : Fin 2 → Nat) a + S1x128.size a ≤ S10x4096.size a
  inb_S4096x128_S128x128_1152_0 : ∀ a, (![1152, 0] : Fin 2 → Nat) a + S128x128.size a ≤ S4096x128.size a
  inb_S10x4096_S1x128_0_1280 : ∀ a, (![0, 1280] : Fin 2 → Nat) a + S1x128.size a ≤ S10x4096.size a
  inb_S10x4096_S1x128_1_1280 : ∀ a, (![1, 1280] : Fin 2 → Nat) a + S1x128.size a ≤ S10x4096.size a
  inb_S10x4096_S1x128_2_1280 : ∀ a, (![2, 1280] : Fin 2 → Nat) a + S1x128.size a ≤ S10x4096.size a
  inb_S10x4096_S1x128_3_1280 : ∀ a, (![3, 1280] : Fin 2 → Nat) a + S1x128.size a ≤ S10x4096.size a
  inb_S10x4096_S1x128_4_1280 : ∀ a, (![4, 1280] : Fin 2 → Nat) a + S1x128.size a ≤ S10x4096.size a
  inb_S10x4096_S1x128_5_1280 : ∀ a, (![5, 1280] : Fin 2 → Nat) a + S1x128.size a ≤ S10x4096.size a
  inb_S10x4096_S1x128_6_1280 : ∀ a, (![6, 1280] : Fin 2 → Nat) a + S1x128.size a ≤ S10x4096.size a
  inb_S10x4096_S1x128_7_1280 : ∀ a, (![7, 1280] : Fin 2 → Nat) a + S1x128.size a ≤ S10x4096.size a
  inb_S10x4096_S1x128_8_1280 : ∀ a, (![8, 1280] : Fin 2 → Nat) a + S1x128.size a ≤ S10x4096.size a
  inb_S10x4096_S1x128_9_1280 : ∀ a, (![9, 1280] : Fin 2 → Nat) a + S1x128.size a ≤ S10x4096.size a
  inb_S4096x128_S128x128_1280_0 : ∀ a, (![1280, 0] : Fin 2 → Nat) a + S128x128.size a ≤ S4096x128.size a
  inb_S10x4096_S1x128_0_1408 : ∀ a, (![0, 1408] : Fin 2 → Nat) a + S1x128.size a ≤ S10x4096.size a
  inb_S10x4096_S1x128_1_1408 : ∀ a, (![1, 1408] : Fin 2 → Nat) a + S1x128.size a ≤ S10x4096.size a
  inb_S10x4096_S1x128_2_1408 : ∀ a, (![2, 1408] : Fin 2 → Nat) a + S1x128.size a ≤ S10x4096.size a
  inb_S10x4096_S1x128_3_1408 : ∀ a, (![3, 1408] : Fin 2 → Nat) a + S1x128.size a ≤ S10x4096.size a
  inb_S10x4096_S1x128_4_1408 : ∀ a, (![4, 1408] : Fin 2 → Nat) a + S1x128.size a ≤ S10x4096.size a
  inb_S10x4096_S1x128_5_1408 : ∀ a, (![5, 1408] : Fin 2 → Nat) a + S1x128.size a ≤ S10x4096.size a
  inb_S10x4096_S1x128_6_1408 : ∀ a, (![6, 1408] : Fin 2 → Nat) a + S1x128.size a ≤ S10x4096.size a
  inb_S10x4096_S1x128_7_1408 : ∀ a, (![7, 1408] : Fin 2 → Nat) a + S1x128.size a ≤ S10x4096.size a
  inb_S10x4096_S1x128_8_1408 : ∀ a, (![8, 1408] : Fin 2 → Nat) a + S1x128.size a ≤ S10x4096.size a
  inb_S10x4096_S1x128_9_1408 : ∀ a, (![9, 1408] : Fin 2 → Nat) a + S1x128.size a ≤ S10x4096.size a
  inb_S4096x128_S128x128_1408_0 : ∀ a, (![1408, 0] : Fin 2 → Nat) a + S128x128.size a ≤ S4096x128.size a
  inb_S10x4096_S1x128_0_1536 : ∀ a, (![0, 1536] : Fin 2 → Nat) a + S1x128.size a ≤ S10x4096.size a
  inb_S10x4096_S1x128_1_1536 : ∀ a, (![1, 1536] : Fin 2 → Nat) a + S1x128.size a ≤ S10x4096.size a
  inb_S10x4096_S1x128_2_1536 : ∀ a, (![2, 1536] : Fin 2 → Nat) a + S1x128.size a ≤ S10x4096.size a
  inb_S10x4096_S1x128_3_1536 : ∀ a, (![3, 1536] : Fin 2 → Nat) a + S1x128.size a ≤ S10x4096.size a
  inb_S10x4096_S1x128_4_1536 : ∀ a, (![4, 1536] : Fin 2 → Nat) a + S1x128.size a ≤ S10x4096.size a
  inb_S10x4096_S1x128_5_1536 : ∀ a, (![5, 1536] : Fin 2 → Nat) a + S1x128.size a ≤ S10x4096.size a
  inb_S10x4096_S1x128_6_1536 : ∀ a, (![6, 1536] : Fin 2 → Nat) a + S1x128.size a ≤ S10x4096.size a
  inb_S10x4096_S1x128_7_1536 : ∀ a, (![7, 1536] : Fin 2 → Nat) a + S1x128.size a ≤ S10x4096.size a
  inb_S10x4096_S1x128_8_1536 : ∀ a, (![8, 1536] : Fin 2 → Nat) a + S1x128.size a ≤ S10x4096.size a
  inb_S10x4096_S1x128_9_1536 : ∀ a, (![9, 1536] : Fin 2 → Nat) a + S1x128.size a ≤ S10x4096.size a
  inb_S4096x128_S128x128_1536_0 : ∀ a, (![1536, 0] : Fin 2 → Nat) a + S128x128.size a ≤ S4096x128.size a
  inb_S10x4096_S1x128_0_1664 : ∀ a, (![0, 1664] : Fin 2 → Nat) a + S1x128.size a ≤ S10x4096.size a
  inb_S10x4096_S1x128_1_1664 : ∀ a, (![1, 1664] : Fin 2 → Nat) a + S1x128.size a ≤ S10x4096.size a
  inb_S10x4096_S1x128_2_1664 : ∀ a, (![2, 1664] : Fin 2 → Nat) a + S1x128.size a ≤ S10x4096.size a
  inb_S10x4096_S1x128_3_1664 : ∀ a, (![3, 1664] : Fin 2 → Nat) a + S1x128.size a ≤ S10x4096.size a
  inb_S10x4096_S1x128_4_1664 : ∀ a, (![4, 1664] : Fin 2 → Nat) a + S1x128.size a ≤ S10x4096.size a
  inb_S10x4096_S1x128_5_1664 : ∀ a, (![5, 1664] : Fin 2 → Nat) a + S1x128.size a ≤ S10x4096.size a
  inb_S10x4096_S1x128_6_1664 : ∀ a, (![6, 1664] : Fin 2 → Nat) a + S1x128.size a ≤ S10x4096.size a
  inb_S10x4096_S1x128_7_1664 : ∀ a, (![7, 1664] : Fin 2 → Nat) a + S1x128.size a ≤ S10x4096.size a
  inb_S10x4096_S1x128_8_1664 : ∀ a, (![8, 1664] : Fin 2 → Nat) a + S1x128.size a ≤ S10x4096.size a
  inb_S10x4096_S1x128_9_1664 : ∀ a, (![9, 1664] : Fin 2 → Nat) a + S1x128.size a ≤ S10x4096.size a
  inb_S4096x128_S128x128_1664_0 : ∀ a, (![1664, 0] : Fin 2 → Nat) a + S128x128.size a ≤ S4096x128.size a
  inb_S10x4096_S1x128_0_1792 : ∀ a, (![0, 1792] : Fin 2 → Nat) a + S1x128.size a ≤ S10x4096.size a
  inb_S10x4096_S1x128_1_1792 : ∀ a, (![1, 1792] : Fin 2 → Nat) a + S1x128.size a ≤ S10x4096.size a
  inb_S10x4096_S1x128_2_1792 : ∀ a, (![2, 1792] : Fin 2 → Nat) a + S1x128.size a ≤ S10x4096.size a
  inb_S10x4096_S1x128_3_1792 : ∀ a, (![3, 1792] : Fin 2 → Nat) a + S1x128.size a ≤ S10x4096.size a
  inb_S10x4096_S1x128_4_1792 : ∀ a, (![4, 1792] : Fin 2 → Nat) a + S1x128.size a ≤ S10x4096.size a
  inb_S10x4096_S1x128_5_1792 : ∀ a, (![5, 1792] : Fin 2 → Nat) a + S1x128.size a ≤ S10x4096.size a
  inb_S10x4096_S1x128_6_1792 : ∀ a, (![6, 1792] : Fin 2 → Nat) a + S1x128.size a ≤ S10x4096.size a
  inb_S10x4096_S1x128_7_1792 : ∀ a, (![7, 1792] : Fin 2 → Nat) a + S1x128.size a ≤ S10x4096.size a
  inb_S10x4096_S1x128_8_1792 : ∀ a, (![8, 1792] : Fin 2 → Nat) a + S1x128.size a ≤ S10x4096.size a
  inb_S10x4096_S1x128_9_1792 : ∀ a, (![9, 1792] : Fin 2 → Nat) a + S1x128.size a ≤ S10x4096.size a
  inb_S4096x128_S128x128_1792_0 : ∀ a, (![1792, 0] : Fin 2 → Nat) a + S128x128.size a ≤ S4096x128.size a
  inb_S10x4096_S1x128_0_1920 : ∀ a, (![0, 1920] : Fin 2 → Nat) a + S1x128.size a ≤ S10x4096.size a
  inb_S10x4096_S1x128_1_1920 : ∀ a, (![1, 1920] : Fin 2 → Nat) a + S1x128.size a ≤ S10x4096.size a
  inb_S10x4096_S1x128_2_1920 : ∀ a, (![2, 1920] : Fin 2 → Nat) a + S1x128.size a ≤ S10x4096.size a
  inb_S10x4096_S1x128_3_1920 : ∀ a, (![3, 1920] : Fin 2 → Nat) a + S1x128.size a ≤ S10x4096.size a
  inb_S10x4096_S1x128_4_1920 : ∀ a, (![4, 1920] : Fin 2 → Nat) a + S1x128.size a ≤ S10x4096.size a
  inb_S10x4096_S1x128_5_1920 : ∀ a, (![5, 1920] : Fin 2 → Nat) a + S1x128.size a ≤ S10x4096.size a
  inb_S10x4096_S1x128_6_1920 : ∀ a, (![6, 1920] : Fin 2 → Nat) a + S1x128.size a ≤ S10x4096.size a
  inb_S10x4096_S1x128_7_1920 : ∀ a, (![7, 1920] : Fin 2 → Nat) a + S1x128.size a ≤ S10x4096.size a
  inb_S10x4096_S1x128_8_1920 : ∀ a, (![8, 1920] : Fin 2 → Nat) a + S1x128.size a ≤ S10x4096.size a
  inb_S10x4096_S1x128_9_1920 : ∀ a, (![9, 1920] : Fin 2 → Nat) a + S1x128.size a ≤ S10x4096.size a
  inb_S4096x128_S128x128_1920_0 : ∀ a, (![1920, 0] : Fin 2 → Nat) a + S128x128.size a ≤ S4096x128.size a
  inb_S10x4096_S1x128_0_2048 : ∀ a, (![0, 2048] : Fin 2 → Nat) a + S1x128.size a ≤ S10x4096.size a
  inb_S10x4096_S1x128_1_2048 : ∀ a, (![1, 2048] : Fin 2 → Nat) a + S1x128.size a ≤ S10x4096.size a
  inb_S10x4096_S1x128_2_2048 : ∀ a, (![2, 2048] : Fin 2 → Nat) a + S1x128.size a ≤ S10x4096.size a
  inb_S10x4096_S1x128_3_2048 : ∀ a, (![3, 2048] : Fin 2 → Nat) a + S1x128.size a ≤ S10x4096.size a
  inb_S10x4096_S1x128_4_2048 : ∀ a, (![4, 2048] : Fin 2 → Nat) a + S1x128.size a ≤ S10x4096.size a
  inb_S10x4096_S1x128_5_2048 : ∀ a, (![5, 2048] : Fin 2 → Nat) a + S1x128.size a ≤ S10x4096.size a
  inb_S10x4096_S1x128_6_2048 : ∀ a, (![6, 2048] : Fin 2 → Nat) a + S1x128.size a ≤ S10x4096.size a
  inb_S10x4096_S1x128_7_2048 : ∀ a, (![7, 2048] : Fin 2 → Nat) a + S1x128.size a ≤ S10x4096.size a
  inb_S10x4096_S1x128_8_2048 : ∀ a, (![8, 2048] : Fin 2 → Nat) a + S1x128.size a ≤ S10x4096.size a
  inb_S10x4096_S1x128_9_2048 : ∀ a, (![9, 2048] : Fin 2 → Nat) a + S1x128.size a ≤ S10x4096.size a
  inb_S4096x128_S128x128_2048_0 : ∀ a, (![2048, 0] : Fin 2 → Nat) a + S128x128.size a ≤ S4096x128.size a
  inb_S10x4096_S1x128_0_2176 : ∀ a, (![0, 2176] : Fin 2 → Nat) a + S1x128.size a ≤ S10x4096.size a
  inb_S10x4096_S1x128_1_2176 : ∀ a, (![1, 2176] : Fin 2 → Nat) a + S1x128.size a ≤ S10x4096.size a
  inb_S10x4096_S1x128_2_2176 : ∀ a, (![2, 2176] : Fin 2 → Nat) a + S1x128.size a ≤ S10x4096.size a
  inb_S10x4096_S1x128_3_2176 : ∀ a, (![3, 2176] : Fin 2 → Nat) a + S1x128.size a ≤ S10x4096.size a
  inb_S10x4096_S1x128_4_2176 : ∀ a, (![4, 2176] : Fin 2 → Nat) a + S1x128.size a ≤ S10x4096.size a
  inb_S10x4096_S1x128_5_2176 : ∀ a, (![5, 2176] : Fin 2 → Nat) a + S1x128.size a ≤ S10x4096.size a
  inb_S10x4096_S1x128_6_2176 : ∀ a, (![6, 2176] : Fin 2 → Nat) a + S1x128.size a ≤ S10x4096.size a
  inb_S10x4096_S1x128_7_2176 : ∀ a, (![7, 2176] : Fin 2 → Nat) a + S1x128.size a ≤ S10x4096.size a
  inb_S10x4096_S1x128_8_2176 : ∀ a, (![8, 2176] : Fin 2 → Nat) a + S1x128.size a ≤ S10x4096.size a
  inb_S10x4096_S1x128_9_2176 : ∀ a, (![9, 2176] : Fin 2 → Nat) a + S1x128.size a ≤ S10x4096.size a
  inb_S4096x128_S128x128_2176_0 : ∀ a, (![2176, 0] : Fin 2 → Nat) a + S128x128.size a ≤ S4096x128.size a
  inb_S10x4096_S1x128_0_2304 : ∀ a, (![0, 2304] : Fin 2 → Nat) a + S1x128.size a ≤ S10x4096.size a
  inb_S10x4096_S1x128_1_2304 : ∀ a, (![1, 2304] : Fin 2 → Nat) a + S1x128.size a ≤ S10x4096.size a
  inb_S10x4096_S1x128_2_2304 : ∀ a, (![2, 2304] : Fin 2 → Nat) a + S1x128.size a ≤ S10x4096.size a
  inb_S10x4096_S1x128_3_2304 : ∀ a, (![3, 2304] : Fin 2 → Nat) a + S1x128.size a ≤ S10x4096.size a
  inb_S10x4096_S1x128_4_2304 : ∀ a, (![4, 2304] : Fin 2 → Nat) a + S1x128.size a ≤ S10x4096.size a
  inb_S10x4096_S1x128_5_2304 : ∀ a, (![5, 2304] : Fin 2 → Nat) a + S1x128.size a ≤ S10x4096.size a
  inb_S10x4096_S1x128_6_2304 : ∀ a, (![6, 2304] : Fin 2 → Nat) a + S1x128.size a ≤ S10x4096.size a
  inb_S10x4096_S1x128_7_2304 : ∀ a, (![7, 2304] : Fin 2 → Nat) a + S1x128.size a ≤ S10x4096.size a
  inb_S10x4096_S1x128_8_2304 : ∀ a, (![8, 2304] : Fin 2 → Nat) a + S1x128.size a ≤ S10x4096.size a
  inb_S10x4096_S1x128_9_2304 : ∀ a, (![9, 2304] : Fin 2 → Nat) a + S1x128.size a ≤ S10x4096.size a
  inb_S4096x128_S128x128_2304_0 : ∀ a, (![2304, 0] : Fin 2 → Nat) a + S128x128.size a ≤ S4096x128.size a
  inb_S10x4096_S1x128_0_2432 : ∀ a, (![0, 2432] : Fin 2 → Nat) a + S1x128.size a ≤ S10x4096.size a
  inb_S10x4096_S1x128_1_2432 : ∀ a, (![1, 2432] : Fin 2 → Nat) a + S1x128.size a ≤ S10x4096.size a
  inb_S10x4096_S1x128_2_2432 : ∀ a, (![2, 2432] : Fin 2 → Nat) a + S1x128.size a ≤ S10x4096.size a
  inb_S10x4096_S1x128_3_2432 : ∀ a, (![3, 2432] : Fin 2 → Nat) a + S1x128.size a ≤ S10x4096.size a
  inb_S10x4096_S1x128_4_2432 : ∀ a, (![4, 2432] : Fin 2 → Nat) a + S1x128.size a ≤ S10x4096.size a
  inb_S10x4096_S1x128_5_2432 : ∀ a, (![5, 2432] : Fin 2 → Nat) a + S1x128.size a ≤ S10x4096.size a
  inb_S10x4096_S1x128_6_2432 : ∀ a, (![6, 2432] : Fin 2 → Nat) a + S1x128.size a ≤ S10x4096.size a
  inb_S10x4096_S1x128_7_2432 : ∀ a, (![7, 2432] : Fin 2 → Nat) a + S1x128.size a ≤ S10x4096.size a
  inb_S10x4096_S1x128_8_2432 : ∀ a, (![8, 2432] : Fin 2 → Nat) a + S1x128.size a ≤ S10x4096.size a
  inb_S10x4096_S1x128_9_2432 : ∀ a, (![9, 2432] : Fin 2 → Nat) a + S1x128.size a ≤ S10x4096.size a
  inb_S4096x128_S128x128_2432_0 : ∀ a, (![2432, 0] : Fin 2 → Nat) a + S128x128.size a ≤ S4096x128.size a
  inb_S10x4096_S1x128_0_2560 : ∀ a, (![0, 2560] : Fin 2 → Nat) a + S1x128.size a ≤ S10x4096.size a
  inb_S10x4096_S1x128_1_2560 : ∀ a, (![1, 2560] : Fin 2 → Nat) a + S1x128.size a ≤ S10x4096.size a
  inb_S10x4096_S1x128_2_2560 : ∀ a, (![2, 2560] : Fin 2 → Nat) a + S1x128.size a ≤ S10x4096.size a
  inb_S10x4096_S1x128_3_2560 : ∀ a, (![3, 2560] : Fin 2 → Nat) a + S1x128.size a ≤ S10x4096.size a
  inb_S10x4096_S1x128_4_2560 : ∀ a, (![4, 2560] : Fin 2 → Nat) a + S1x128.size a ≤ S10x4096.size a
  inb_S10x4096_S1x128_5_2560 : ∀ a, (![5, 2560] : Fin 2 → Nat) a + S1x128.size a ≤ S10x4096.size a
  inb_S10x4096_S1x128_6_2560 : ∀ a, (![6, 2560] : Fin 2 → Nat) a + S1x128.size a ≤ S10x4096.size a
  inb_S10x4096_S1x128_7_2560 : ∀ a, (![7, 2560] : Fin 2 → Nat) a + S1x128.size a ≤ S10x4096.size a
  inb_S10x4096_S1x128_8_2560 : ∀ a, (![8, 2560] : Fin 2 → Nat) a + S1x128.size a ≤ S10x4096.size a
  inb_S10x4096_S1x128_9_2560 : ∀ a, (![9, 2560] : Fin 2 → Nat) a + S1x128.size a ≤ S10x4096.size a
  inb_S4096x128_S128x128_2560_0 : ∀ a, (![2560, 0] : Fin 2 → Nat) a + S128x128.size a ≤ S4096x128.size a
  inb_S10x4096_S1x128_0_2688 : ∀ a, (![0, 2688] : Fin 2 → Nat) a + S1x128.size a ≤ S10x4096.size a
  inb_S10x4096_S1x128_1_2688 : ∀ a, (![1, 2688] : Fin 2 → Nat) a + S1x128.size a ≤ S10x4096.size a
  inb_S10x4096_S1x128_2_2688 : ∀ a, (![2, 2688] : Fin 2 → Nat) a + S1x128.size a ≤ S10x4096.size a
  inb_S10x4096_S1x128_3_2688 : ∀ a, (![3, 2688] : Fin 2 → Nat) a + S1x128.size a ≤ S10x4096.size a
  inb_S10x4096_S1x128_4_2688 : ∀ a, (![4, 2688] : Fin 2 → Nat) a + S1x128.size a ≤ S10x4096.size a
  inb_S10x4096_S1x128_5_2688 : ∀ a, (![5, 2688] : Fin 2 → Nat) a + S1x128.size a ≤ S10x4096.size a
  inb_S10x4096_S1x128_6_2688 : ∀ a, (![6, 2688] : Fin 2 → Nat) a + S1x128.size a ≤ S10x4096.size a
  inb_S10x4096_S1x128_7_2688 : ∀ a, (![7, 2688] : Fin 2 → Nat) a + S1x128.size a ≤ S10x4096.size a
  inb_S10x4096_S1x128_8_2688 : ∀ a, (![8, 2688] : Fin 2 → Nat) a + S1x128.size a ≤ S10x4096.size a
  inb_S10x4096_S1x128_9_2688 : ∀ a, (![9, 2688] : Fin 2 → Nat) a + S1x128.size a ≤ S10x4096.size a
  inb_S4096x128_S128x128_2688_0 : ∀ a, (![2688, 0] : Fin 2 → Nat) a + S128x128.size a ≤ S4096x128.size a
  inb_S10x4096_S1x128_0_2816 : ∀ a, (![0, 2816] : Fin 2 → Nat) a + S1x128.size a ≤ S10x4096.size a
  inb_S10x4096_S1x128_1_2816 : ∀ a, (![1, 2816] : Fin 2 → Nat) a + S1x128.size a ≤ S10x4096.size a
  inb_S10x4096_S1x128_2_2816 : ∀ a, (![2, 2816] : Fin 2 → Nat) a + S1x128.size a ≤ S10x4096.size a
  inb_S10x4096_S1x128_3_2816 : ∀ a, (![3, 2816] : Fin 2 → Nat) a + S1x128.size a ≤ S10x4096.size a
  inb_S10x4096_S1x128_4_2816 : ∀ a, (![4, 2816] : Fin 2 → Nat) a + S1x128.size a ≤ S10x4096.size a
  inb_S10x4096_S1x128_5_2816 : ∀ a, (![5, 2816] : Fin 2 → Nat) a + S1x128.size a ≤ S10x4096.size a
  inb_S10x4096_S1x128_6_2816 : ∀ a, (![6, 2816] : Fin 2 → Nat) a + S1x128.size a ≤ S10x4096.size a
  inb_S10x4096_S1x128_7_2816 : ∀ a, (![7, 2816] : Fin 2 → Nat) a + S1x128.size a ≤ S10x4096.size a
  inb_S10x4096_S1x128_8_2816 : ∀ a, (![8, 2816] : Fin 2 → Nat) a + S1x128.size a ≤ S10x4096.size a
  inb_S10x4096_S1x128_9_2816 : ∀ a, (![9, 2816] : Fin 2 → Nat) a + S1x128.size a ≤ S10x4096.size a
  inb_S4096x128_S128x128_2816_0 : ∀ a, (![2816, 0] : Fin 2 → Nat) a + S128x128.size a ≤ S4096x128.size a
  inb_S10x4096_S1x128_0_2944 : ∀ a, (![0, 2944] : Fin 2 → Nat) a + S1x128.size a ≤ S10x4096.size a
  inb_S10x4096_S1x128_1_2944 : ∀ a, (![1, 2944] : Fin 2 → Nat) a + S1x128.size a ≤ S10x4096.size a
  inb_S10x4096_S1x128_2_2944 : ∀ a, (![2, 2944] : Fin 2 → Nat) a + S1x128.size a ≤ S10x4096.size a
  inb_S10x4096_S1x128_3_2944 : ∀ a, (![3, 2944] : Fin 2 → Nat) a + S1x128.size a ≤ S10x4096.size a
  inb_S10x4096_S1x128_4_2944 : ∀ a, (![4, 2944] : Fin 2 → Nat) a + S1x128.size a ≤ S10x4096.size a
  inb_S10x4096_S1x128_5_2944 : ∀ a, (![5, 2944] : Fin 2 → Nat) a + S1x128.size a ≤ S10x4096.size a
  inb_S10x4096_S1x128_6_2944 : ∀ a, (![6, 2944] : Fin 2 → Nat) a + S1x128.size a ≤ S10x4096.size a
  inb_S10x4096_S1x128_7_2944 : ∀ a, (![7, 2944] : Fin 2 → Nat) a + S1x128.size a ≤ S10x4096.size a
  inb_S10x4096_S1x128_8_2944 : ∀ a, (![8, 2944] : Fin 2 → Nat) a + S1x128.size a ≤ S10x4096.size a
  inb_S10x4096_S1x128_9_2944 : ∀ a, (![9, 2944] : Fin 2 → Nat) a + S1x128.size a ≤ S10x4096.size a
  inb_S4096x128_S128x128_2944_0 : ∀ a, (![2944, 0] : Fin 2 → Nat) a + S128x128.size a ≤ S4096x128.size a
  inb_S10x4096_S1x128_0_3072 : ∀ a, (![0, 3072] : Fin 2 → Nat) a + S1x128.size a ≤ S10x4096.size a
  inb_S10x4096_S1x128_1_3072 : ∀ a, (![1, 3072] : Fin 2 → Nat) a + S1x128.size a ≤ S10x4096.size a
  inb_S10x4096_S1x128_2_3072 : ∀ a, (![2, 3072] : Fin 2 → Nat) a + S1x128.size a ≤ S10x4096.size a
  inb_S10x4096_S1x128_3_3072 : ∀ a, (![3, 3072] : Fin 2 → Nat) a + S1x128.size a ≤ S10x4096.size a
  inb_S10x4096_S1x128_4_3072 : ∀ a, (![4, 3072] : Fin 2 → Nat) a + S1x128.size a ≤ S10x4096.size a
  inb_S10x4096_S1x128_5_3072 : ∀ a, (![5, 3072] : Fin 2 → Nat) a + S1x128.size a ≤ S10x4096.size a
  inb_S10x4096_S1x128_6_3072 : ∀ a, (![6, 3072] : Fin 2 → Nat) a + S1x128.size a ≤ S10x4096.size a
  inb_S10x4096_S1x128_7_3072 : ∀ a, (![7, 3072] : Fin 2 → Nat) a + S1x128.size a ≤ S10x4096.size a
  inb_S10x4096_S1x128_8_3072 : ∀ a, (![8, 3072] : Fin 2 → Nat) a + S1x128.size a ≤ S10x4096.size a
  inb_S10x4096_S1x128_9_3072 : ∀ a, (![9, 3072] : Fin 2 → Nat) a + S1x128.size a ≤ S10x4096.size a
  inb_S4096x128_S128x128_3072_0 : ∀ a, (![3072, 0] : Fin 2 → Nat) a + S128x128.size a ≤ S4096x128.size a
  inb_S10x4096_S1x128_0_3200 : ∀ a, (![0, 3200] : Fin 2 → Nat) a + S1x128.size a ≤ S10x4096.size a
  inb_S10x4096_S1x128_1_3200 : ∀ a, (![1, 3200] : Fin 2 → Nat) a + S1x128.size a ≤ S10x4096.size a
  inb_S10x4096_S1x128_2_3200 : ∀ a, (![2, 3200] : Fin 2 → Nat) a + S1x128.size a ≤ S10x4096.size a
  inb_S10x4096_S1x128_3_3200 : ∀ a, (![3, 3200] : Fin 2 → Nat) a + S1x128.size a ≤ S10x4096.size a
  inb_S10x4096_S1x128_4_3200 : ∀ a, (![4, 3200] : Fin 2 → Nat) a + S1x128.size a ≤ S10x4096.size a
  inb_S10x4096_S1x128_5_3200 : ∀ a, (![5, 3200] : Fin 2 → Nat) a + S1x128.size a ≤ S10x4096.size a
  inb_S10x4096_S1x128_6_3200 : ∀ a, (![6, 3200] : Fin 2 → Nat) a + S1x128.size a ≤ S10x4096.size a
  inb_S10x4096_S1x128_7_3200 : ∀ a, (![7, 3200] : Fin 2 → Nat) a + S1x128.size a ≤ S10x4096.size a
  inb_S10x4096_S1x128_8_3200 : ∀ a, (![8, 3200] : Fin 2 → Nat) a + S1x128.size a ≤ S10x4096.size a
  inb_S10x4096_S1x128_9_3200 : ∀ a, (![9, 3200] : Fin 2 → Nat) a + S1x128.size a ≤ S10x4096.size a
  inb_S4096x128_S128x128_3200_0 : ∀ a, (![3200, 0] : Fin 2 → Nat) a + S128x128.size a ≤ S4096x128.size a
  inb_S10x4096_S1x128_0_3328 : ∀ a, (![0, 3328] : Fin 2 → Nat) a + S1x128.size a ≤ S10x4096.size a
  inb_S10x4096_S1x128_1_3328 : ∀ a, (![1, 3328] : Fin 2 → Nat) a + S1x128.size a ≤ S10x4096.size a
  inb_S10x4096_S1x128_2_3328 : ∀ a, (![2, 3328] : Fin 2 → Nat) a + S1x128.size a ≤ S10x4096.size a
  inb_S10x4096_S1x128_3_3328 : ∀ a, (![3, 3328] : Fin 2 → Nat) a + S1x128.size a ≤ S10x4096.size a
  inb_S10x4096_S1x128_4_3328 : ∀ a, (![4, 3328] : Fin 2 → Nat) a + S1x128.size a ≤ S10x4096.size a
  inb_S10x4096_S1x128_5_3328 : ∀ a, (![5, 3328] : Fin 2 → Nat) a + S1x128.size a ≤ S10x4096.size a
  inb_S10x4096_S1x128_6_3328 : ∀ a, (![6, 3328] : Fin 2 → Nat) a + S1x128.size a ≤ S10x4096.size a
  inb_S10x4096_S1x128_7_3328 : ∀ a, (![7, 3328] : Fin 2 → Nat) a + S1x128.size a ≤ S10x4096.size a
  inb_S10x4096_S1x128_8_3328 : ∀ a, (![8, 3328] : Fin 2 → Nat) a + S1x128.size a ≤ S10x4096.size a
  inb_S10x4096_S1x128_9_3328 : ∀ a, (![9, 3328] : Fin 2 → Nat) a + S1x128.size a ≤ S10x4096.size a
  inb_S4096x128_S128x128_3328_0 : ∀ a, (![3328, 0] : Fin 2 → Nat) a + S128x128.size a ≤ S4096x128.size a
  inb_S10x4096_S1x128_0_3456 : ∀ a, (![0, 3456] : Fin 2 → Nat) a + S1x128.size a ≤ S10x4096.size a
  inb_S10x4096_S1x128_1_3456 : ∀ a, (![1, 3456] : Fin 2 → Nat) a + S1x128.size a ≤ S10x4096.size a
  inb_S10x4096_S1x128_2_3456 : ∀ a, (![2, 3456] : Fin 2 → Nat) a + S1x128.size a ≤ S10x4096.size a
  inb_S10x4096_S1x128_3_3456 : ∀ a, (![3, 3456] : Fin 2 → Nat) a + S1x128.size a ≤ S10x4096.size a
  inb_S10x4096_S1x128_4_3456 : ∀ a, (![4, 3456] : Fin 2 → Nat) a + S1x128.size a ≤ S10x4096.size a
  inb_S10x4096_S1x128_5_3456 : ∀ a, (![5, 3456] : Fin 2 → Nat) a + S1x128.size a ≤ S10x4096.size a
  inb_S10x4096_S1x128_6_3456 : ∀ a, (![6, 3456] : Fin 2 → Nat) a + S1x128.size a ≤ S10x4096.size a
  inb_S10x4096_S1x128_7_3456 : ∀ a, (![7, 3456] : Fin 2 → Nat) a + S1x128.size a ≤ S10x4096.size a
  inb_S10x4096_S1x128_8_3456 : ∀ a, (![8, 3456] : Fin 2 → Nat) a + S1x128.size a ≤ S10x4096.size a
  inb_S10x4096_S1x128_9_3456 : ∀ a, (![9, 3456] : Fin 2 → Nat) a + S1x128.size a ≤ S10x4096.size a
  inb_S4096x128_S128x128_3456_0 : ∀ a, (![3456, 0] : Fin 2 → Nat) a + S128x128.size a ≤ S4096x128.size a
  inb_S10x4096_S1x128_0_3584 : ∀ a, (![0, 3584] : Fin 2 → Nat) a + S1x128.size a ≤ S10x4096.size a
  inb_S10x4096_S1x128_1_3584 : ∀ a, (![1, 3584] : Fin 2 → Nat) a + S1x128.size a ≤ S10x4096.size a
  inb_S10x4096_S1x128_2_3584 : ∀ a, (![2, 3584] : Fin 2 → Nat) a + S1x128.size a ≤ S10x4096.size a
  inb_S10x4096_S1x128_3_3584 : ∀ a, (![3, 3584] : Fin 2 → Nat) a + S1x128.size a ≤ S10x4096.size a
  inb_S10x4096_S1x128_4_3584 : ∀ a, (![4, 3584] : Fin 2 → Nat) a + S1x128.size a ≤ S10x4096.size a
  inb_S10x4096_S1x128_5_3584 : ∀ a, (![5, 3584] : Fin 2 → Nat) a + S1x128.size a ≤ S10x4096.size a
  inb_S10x4096_S1x128_6_3584 : ∀ a, (![6, 3584] : Fin 2 → Nat) a + S1x128.size a ≤ S10x4096.size a
  inb_S10x4096_S1x128_7_3584 : ∀ a, (![7, 3584] : Fin 2 → Nat) a + S1x128.size a ≤ S10x4096.size a
  inb_S10x4096_S1x128_8_3584 : ∀ a, (![8, 3584] : Fin 2 → Nat) a + S1x128.size a ≤ S10x4096.size a
  inb_S10x4096_S1x128_9_3584 : ∀ a, (![9, 3584] : Fin 2 → Nat) a + S1x128.size a ≤ S10x4096.size a
  inb_S4096x128_S128x128_3584_0 : ∀ a, (![3584, 0] : Fin 2 → Nat) a + S128x128.size a ≤ S4096x128.size a
  inb_S10x4096_S1x128_0_3712 : ∀ a, (![0, 3712] : Fin 2 → Nat) a + S1x128.size a ≤ S10x4096.size a
  inb_S10x4096_S1x128_1_3712 : ∀ a, (![1, 3712] : Fin 2 → Nat) a + S1x128.size a ≤ S10x4096.size a
  inb_S10x4096_S1x128_2_3712 : ∀ a, (![2, 3712] : Fin 2 → Nat) a + S1x128.size a ≤ S10x4096.size a
  inb_S10x4096_S1x128_3_3712 : ∀ a, (![3, 3712] : Fin 2 → Nat) a + S1x128.size a ≤ S10x4096.size a
  inb_S10x4096_S1x128_4_3712 : ∀ a, (![4, 3712] : Fin 2 → Nat) a + S1x128.size a ≤ S10x4096.size a
  inb_S10x4096_S1x128_5_3712 : ∀ a, (![5, 3712] : Fin 2 → Nat) a + S1x128.size a ≤ S10x4096.size a
  inb_S10x4096_S1x128_6_3712 : ∀ a, (![6, 3712] : Fin 2 → Nat) a + S1x128.size a ≤ S10x4096.size a
  inb_S10x4096_S1x128_7_3712 : ∀ a, (![7, 3712] : Fin 2 → Nat) a + S1x128.size a ≤ S10x4096.size a
  inb_S10x4096_S1x128_8_3712 : ∀ a, (![8, 3712] : Fin 2 → Nat) a + S1x128.size a ≤ S10x4096.size a
  inb_S10x4096_S1x128_9_3712 : ∀ a, (![9, 3712] : Fin 2 → Nat) a + S1x128.size a ≤ S10x4096.size a
  inb_S4096x128_S128x128_3712_0 : ∀ a, (![3712, 0] : Fin 2 → Nat) a + S128x128.size a ≤ S4096x128.size a
  inb_S10x4096_S1x128_0_3840 : ∀ a, (![0, 3840] : Fin 2 → Nat) a + S1x128.size a ≤ S10x4096.size a
  inb_S10x4096_S1x128_1_3840 : ∀ a, (![1, 3840] : Fin 2 → Nat) a + S1x128.size a ≤ S10x4096.size a
  inb_S10x4096_S1x128_2_3840 : ∀ a, (![2, 3840] : Fin 2 → Nat) a + S1x128.size a ≤ S10x4096.size a
  inb_S10x4096_S1x128_3_3840 : ∀ a, (![3, 3840] : Fin 2 → Nat) a + S1x128.size a ≤ S10x4096.size a
  inb_S10x4096_S1x128_4_3840 : ∀ a, (![4, 3840] : Fin 2 → Nat) a + S1x128.size a ≤ S10x4096.size a
  inb_S10x4096_S1x128_5_3840 : ∀ a, (![5, 3840] : Fin 2 → Nat) a + S1x128.size a ≤ S10x4096.size a
  inb_S10x4096_S1x128_6_3840 : ∀ a, (![6, 3840] : Fin 2 → Nat) a + S1x128.size a ≤ S10x4096.size a
  inb_S10x4096_S1x128_7_3840 : ∀ a, (![7, 3840] : Fin 2 → Nat) a + S1x128.size a ≤ S10x4096.size a
  inb_S10x4096_S1x128_8_3840 : ∀ a, (![8, 3840] : Fin 2 → Nat) a + S1x128.size a ≤ S10x4096.size a
  inb_S10x4096_S1x128_9_3840 : ∀ a, (![9, 3840] : Fin 2 → Nat) a + S1x128.size a ≤ S10x4096.size a
  inb_S4096x128_S128x128_3840_0 : ∀ a, (![3840, 0] : Fin 2 → Nat) a + S128x128.size a ≤ S4096x128.size a
  inb_S10x4096_S1x128_0_3968 : ∀ a, (![0, 3968] : Fin 2 → Nat) a + S1x128.size a ≤ S10x4096.size a
  inb_S10x4096_S1x128_1_3968 : ∀ a, (![1, 3968] : Fin 2 → Nat) a + S1x128.size a ≤ S10x4096.size a
  inb_S10x4096_S1x128_2_3968 : ∀ a, (![2, 3968] : Fin 2 → Nat) a + S1x128.size a ≤ S10x4096.size a
  inb_S10x4096_S1x128_3_3968 : ∀ a, (![3, 3968] : Fin 2 → Nat) a + S1x128.size a ≤ S10x4096.size a
  inb_S10x4096_S1x128_4_3968 : ∀ a, (![4, 3968] : Fin 2 → Nat) a + S1x128.size a ≤ S10x4096.size a
  inb_S10x4096_S1x128_5_3968 : ∀ a, (![5, 3968] : Fin 2 → Nat) a + S1x128.size a ≤ S10x4096.size a
  inb_S10x4096_S1x128_6_3968 : ∀ a, (![6, 3968] : Fin 2 → Nat) a + S1x128.size a ≤ S10x4096.size a
  inb_S10x4096_S1x128_7_3968 : ∀ a, (![7, 3968] : Fin 2 → Nat) a + S1x128.size a ≤ S10x4096.size a
  inb_S10x4096_S1x128_8_3968 : ∀ a, (![8, 3968] : Fin 2 → Nat) a + S1x128.size a ≤ S10x4096.size a
  inb_S10x4096_S1x128_9_3968 : ∀ a, (![9, 3968] : Fin 2 → Nat) a + S1x128.size a ≤ S10x4096.size a
  inb_S4096x128_S128x128_3968_0 : ∀ a, (![3968, 0] : Fin 2 → Nat) a + S128x128.size a ≤ S4096x128.size a
  dot_S128x128_S128x128_S128x128_0_0_1_1_n_n_wf : DotDims.WF S128x128 S128x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10x4096.size a ≤ S10x131072.size a
  hwx0_0 : ∀ i : grid0.Coords, EltTy.bits .f32 = 32 ∨ (Rect.block (s := S10x131072) S10x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S1280x128.size a
  hwx0_1 : ∀ i : grid0.Coords, EltTy.bits .f32 = 32 ∨ (Rect.block (s := S1280x128) S1280x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)

variable [Facts₀]

def dot_S128x128_S128x128_S128x128_0_0_1_1_n_n : DotDims S128x128 S128x128 S128x128 where
  lhsContracting := [0]
  rhsContracting := [0]
  lhsNonContracting := [1]
  rhsNonContracting := [1]
  lhsBatch := []
  rhsBatch := []
  wf := dot_S128x128_S128x128_S128x128_0_0_1_1_n_n_wf

abbrev win0_0 : Pipeline.Window sig grid0 :=
  Pipeline.Window.ofSpec (Memref.whole main_v0) S10x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1280x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The function both programs compute, on the extended reals.

  For input points x (131072 points of ten coordinates), grid points p (128 points of ten coordinates) and a
  128 × 128 matrix c, the result at (n, q) is

      ∑ₖ exp (−‖xₙ − pₖ‖₁) · c(k, q),        ‖xₙ − pₖ‖₁ = ∑_d |x(n, d) − p(k, d)|,

  the product Laplace kernel between the points and the grid, multiplied by c.  The absolute value of an extended
  real a is max a (−a), so one coordinate's term is `gap a b = max (a − b) (−(a − b))`.

  Two spellings of the exponent meet here.  One subtracts the grid coordinate first (|p − x|), adds the ten terms
  from left to right and negates by subtracting from zero; the other subtracts the point's coordinate first
  (|x − p|), sums the ten terms onto a zero, negates, and divides by the length scale one.  `gap` is symmetric on
  all of the extended reals (at the infinities both orders give +∞), a sum of ten terms does not depend on how it is
  bracketed, 0 − s = −s, and s / 1 = s: so both are −‖x − p‖₁.
-/
import Idealize.ShloMosaic.PureOps.Ideal
import Idealize.ShloMosaic.PureOps.Ideal.Laws
import Idealize.ShloMosaic.Lib.ValueIdx

noncomputable section

namespace Cert.Tmk

open Idealize.ShloMosaic Idealize.ShloMosaic.ValueIdx

/-- |a − b| on the extended reals. -/
def gap (a b : EReal) : EReal := max (a - b) (-(a - b))

/-- |a − b| = |b − a|, also at the infinities: if exactly one of a, b is infinite, or both are and they differ,
    one difference is +∞ and the other −∞; if they are the same infinity both differences are −∞; for two reals
    it is the real law. -/
theorem gap_comm (a b : EReal) : gap a b = gap b a := by
  unfold gap
  induction a using EReal.rec <;> induction b using EReal.rec <;> simp [sub_eq_add_neg, max_comm]
  rename_i a b
  have h1 : (a : EReal) + -(b : EReal) = ((a - b : ℝ) : EReal) := by
    rw [sub_eq_add_neg, EReal.coe_add, EReal.coe_neg]
  have h2 : (b : EReal) + -(a : EReal) = ((b - a : ℝ) : EReal) := by
    rw [sub_eq_add_neg, EReal.coe_add, EReal.coe_neg]
  rw [h1, h2, ← EReal.coe_neg, ← EReal.coe_neg, neg_sub, neg_sub, max_comm]

/-- The L¹ distance of two points of ten coordinates. -/
def dist (a b : Fin 10 → EReal) : EReal := ∑ d : Fin 10, gap (a d) (b d)

/-- Ten terms added from left to right are their sum. -/
theorem sum_left_to_right (f : Fin 10 → EReal) :
    ((((((((f 0 + f 1) + f 2) + f 3) + f 4) + f 5) + f 6) + f 7) + f 8) + f 9 = ∑ d : Fin 10, f d := by
  simp only [Fin.sum_univ_castSucc, Fin.sum_univ_zero, zero_add]
  rfl

/-- The pattern of the float 1.0 denotes the real one. -/
theorem ofBits_one : Ideal.ofBits .f32 0x3F800000#32 = 1 := by
  simp [Ideal.ofBits, Ideal.ieee, -EReal.coe_mul]; norm_num

/-- Division by the float 1.0 changes nothing. -/
theorem div_one (x : EReal) : Ideal.div x (Ideal.ofBits .f32 0x3F800000#32) = x := by
  rw [ofBits_one]
  have h := Ideal.div_coe (one_ne_zero : (1 : ℝ) ≠ 0) x
  simpa using h

/-- The exponent spelt with the grid coordinate first, the terms added left to right, negated by subtraction from
    the float zero. -/
theorem exponent_grid_first (a b : Fin 10 → EReal) :
    Ideal.ofBits .f32 0x00000000#32
      - (((((((((gap (b 0) (a 0) + gap (b 1) (a 1)) + gap (b 2) (a 2)) + gap (b 3) (a 3)) + gap (b 4) (a 4))
          + gap (b 5) (a 5)) + gap (b 6) (a 6)) + gap (b 7) (a 7)) + gap (b 8) (a 8)) + gap (b 9) (a 9))
      = -(dist a b) := by
  rw [sum_left_to_right (fun d => gap (b d) (a d)), Ideal.ofBits_zero_f32, zero_sub]
  unfold dist
  exact congrArg Neg.neg (Finset.sum_congr rfl fun d _ => gap_comm (b d) (a d))

/-- The exponent spelt with the point's coordinate first, the terms summed onto the float zero, negated, divided by
    the float one. -/
theorem exponent_point_first (a b : Fin 10 → EReal) :
    Ideal.div (-(Ideal.ofBits .f32 0x00000000#32 + ∑ d : Fin 10, gap (a d) (b d))) (Ideal.ofBits .f32 0x3F800000#32)
      = -(dist a b) := by
  rw [div_one, Ideal.ofBits_zero_f32, zero_add]
  rfl

/-- The result at point n and column q. -/
def at_ (x : (⟨2, ![131072, 10]⟩ : Shape).Idx → EReal) (p : (⟨2, ![128, 10]⟩ : Shape).Idx → EReal)
    (c : (⟨2, ![128, 128]⟩ : Shape).Idx → EReal) (n : Fin 131072) (q : Fin 128) : EReal :=
  ∑ k : Fin 128, Ideal.exp (-(dist (fun d => x (ix2 n d)) (fun d => p (ix2 k d)))) * c (ix2 k q)

/-- The whole result array. -/
def G (x : (⟨2, ![131072, 10]⟩ : Shape).Idx → EReal) (p : (⟨2, ![128, 10]⟩ : Shape).Idx → EReal)
    (c : (⟨2, ![128, 128]⟩ : Shape).Idx → EReal) : (⟨2, ![131072, 128]⟩ : Shape).Idx → EReal :=
  fun i => at_ x p c (i 0) (i 1)

theorem G_ix2 (x : (⟨2, ![131072, 10]⟩ : Shape).Idx → EReal) (p : (⟨2, ![128, 10]⟩ : Shape).Idx → EReal)
    (c : (⟨2, ![128, 128]⟩ : Shape).Idx → EReal) (n : Fin 131072) (q : Fin 128) :
    G x p c (ix2 n q) = at_ x p c n q := rfl

end Cert.Tmk

end
-- ==== Proof.Chunk.lean ====
/-
  One 128-wide chunk of the kernel's work, as a function of what it loads.

  For 128 consecutive points the kernel builds the TRANSPOSED kernel-matrix tile kt(k, r) = exp (0 − ∑_d |p_d(k, r) − x_d(r)|),
  k the grid point (along rows) and r the point inside the chunk (along columns): coordinate d of the grid comes as a
  128 × 128 tile p_d whose columns are all equal, coordinate d of the points as a 1 × 128 row x_d repeated down the
  rows; the ten terms are added one after the other.  The tile is then contracted on its FIRST axis against c:
  out(r, q) = ∑ₖ kt(k, r) · c(k, q), onto a zero accumulator.
-/
import proofs.«119027_g10067403342211_week1_w1_198_15_alg».proof.Proof.Gen.KernelIdeal.Skeleton
import proofs.«119027_g10067403342211_week1_w1_198_15_alg».proof.Proof.Spec
import Idealize.ShloMosaic.Lib.Pipeline.Value
import Idealize.ShloMosaic.Lib.ValueIdx
import Idealize.ShloMosaic.PureOps.Ideal.Laws

set_option synthInstance.maxSize 4096

noncomputable section

namespace Cert.KernelIdeal.Chunk

open Cert.KernelIdeal Cert.KernelIdeal.Gen Idealize.ShloMosaic Idealize.ShloMosaic.ValueIdx Cert.Tmk

variable {F : FTy → Type} [FloatOps F]

/-- One coordinate's tile of absolute differences |p − x|: the row of point coordinates repeated down the rows and
    subtracted from the grid tile. -/
def term (xr : Vec F S1x128 .f32) (pb : Vec F S128x128 .f32) : FVec F S128x128 .f32 :=
  absf (subf (shapeCast S128x128 pb shapeCasts_S128x128_S128x128)
    (broadcastTo S128x128 (shapeCast S1x128 xr shapeCasts_S1x128_S1x128) broadcasts_S1x128_S128x128))

/-- The chunk's result tile from the matrix c and the ten (row, tile) pairs it loads. -/
def chunk (c : Vec F S128x128 .f32) (xr0 : Vec F S1x128 .f32) (pb0 : Vec F S128x128 .f32) (xr1 : Vec F S1x128 .f32) (pb1 : Vec F S128x128 .f32) (xr2 : Vec F S1x128 .f32) (pb2 : Vec F S128x128 .f32) (xr3 : Vec F S1x128 .f32) (pb3 : Vec F S128x128 .f32) (xr4 : Vec F S1x128 .f32) (pb4 : Vec F S128x128 .f32) (xr5 : Vec F S1x128 .f32) (pb5 : Vec F S128x128 .f32) (xr6 : Vec F S1x128 .f32) (pb6 : Vec F S128x128 .f32) (xr7 : Vec F S1x128 .f32) (pb7 : Vec F S128x128 .f32) (xr8 : Vec F S1x128 .f32) (pb8 : Vec F S128x128 .f32) (xr9 : Vec F S1x128 .f32) (pb9 : Vec F S128x128 .f32) : FVec F S128x128 .f32 :=
  matmul dot_S128x128_S128x128_S128x128_0_0_1_1_n_n none
    (exp (subf (broadcast S128x128 (Scalar.ofBits .f32 0x00000000#32)) (addf (addf (addf (addf (addf (addf (addf (addf (addf (term xr0 pb0) (term xr1 pb1)) (term xr2 pb2)) (term xr3 pb3)) (term xr4 pb4)) (term xr5 pb5)) (term xr6 pb6)) (term xr7 pb7)) (term xr8 pb8)) (term xr9 pb9))))
    c (constant S128x128 .f32 0x00000000#32)

/-- At (k, r) a coordinate's tile holds |p(k, r) − x(r)|. -/
theorem term_apply (xr : Vec Ideal S1x128 .f32) (pb : Vec Ideal S128x128 .f32) (k r : Fin 128) :
    term xr pb (ix2 k r) = gap (pb (ix2 k r)) (xr (ix2 (0 : Fin 1) r)) := by
  unfold term
  rw [shapeCast_self, shapeCast_self]
  show max (pb (ix2 k r) - broadcastTo S128x128 xr broadcasts_S1x128_S128x128 (ix2 k r))
    (-(pb (ix2 k r) - broadcastTo S128x128 xr broadcasts_S1x128_S128x128 (ix2 k r))) = _
  rw [broadcastTo_apply xr broadcasts_S1x128_S128x128 (ix2 k r) (ix2 (0 : Fin 1) r) (fun a => by
    match a with
    | ⟨0, _⟩ => rfl
    | ⟨1, _⟩ => rfl)]
  rfl

/-! The contraction's operand indices, axis by axis: it contracts the first axis of both operands; the result's row
    is the left operand's column and the result's column the right operand's column. -/

theorem lhs_axis0 (i : S128x128.Idx) (q : dot_S128x128_S128x128_S128x128_0_0_1_1_n_n.contr.Idx) :
    (dot_S128x128_S128x128_S128x128_0_0_1_1_n_n.lhsIdx i q 0).val = (q ⟨0, by decide⟩).val :=
  dot_S128x128_S128x128_S128x128_0_0_1_1_n_n.lhsIdx_val_of_single rfl i q
theorem lhs_axis1 (i : S128x128.Idx) (q : dot_S128x128_S128x128_S128x128_0_0_1_1_n_n.contr.Idx) :
    (dot_S128x128_S128x128_S128x128_0_0_1_1_n_n.lhsIdx i q 1).val = (i 0).val := by
  unfold DotDims.lhsIdx
  rw [dif_neg (show ¬(1 : Fin S128x128.rank) ∈ dot_S128x128_S128x128_S128x128_0_0_1_1_n_n.lhsBatch by decide), dif_pos (show (1 : Fin S128x128.rank) ∈ dot_S128x128_S128x128_S128x128_0_0_1_1_n_n.lhsNonContracting by decide)]
  rfl
theorem rhs_axis0 (i : S128x128.Idx) (q : dot_S128x128_S128x128_S128x128_0_0_1_1_n_n.contr.Idx) :
    (dot_S128x128_S128x128_S128x128_0_0_1_1_n_n.rhsIdx i q 0).val = (q ⟨0, by decide⟩).val :=
  dot_S128x128_S128x128_S128x128_0_0_1_1_n_n.rhsIdx_val_of_single rfl i q
theorem rhs_axis1 (i : S128x128.Idx) (q : dot_S128x128_S128x128_S128x128_0_0_1_1_n_n.contr.Idx) :
    (dot_S128x128_S128x128_S128x128_0_0_1_1_n_n.rhsIdx i q 1).val = (i 1).val := by
  unfold DotDims.rhsIdx
  rw [dif_neg (show ¬(1 : Fin S128x128.rank) ∈ dot_S128x128_S128x128_S128x128_0_0_1_1_n_n.rhsBatch by decide), dif_pos (show (1 : Fin S128x128.rank) ∈ dot_S128x128_S128x128_S128x128_0_0_1_1_n_n.rhsNonContracting by decide)]
  rfl

/-- The chunk's tile at (r, q): the sum over grid points k of exp (0 − the ten terms at (k, r), added left to
    right) times c(k, q). -/
theorem chunk_apply (c : Vec Ideal S128x128 .f32) (xr0 : Vec Ideal S1x128 .f32) (pb0 : Vec Ideal S128x128 .f32) (xr1 : Vec Ideal S1x128 .f32) (pb1 : Vec Ideal S128x128 .f32) (xr2 : Vec Ideal S1x128 .f32) (pb2 : Vec Ideal S128x128 .f32) (xr3 : Vec Ideal S1x128 .f32) (pb3 : Vec Ideal S128x128 .f32) (xr4 : Vec Ideal S1x128 .f32) (pb4 : Vec Ideal S128x128 .f32) (xr5 : Vec Ideal S1x128 .f32) (pb5 : Vec Ideal S128x128 .f32) (xr6 : Vec Ideal S1x128 .f32) (pb6 : Vec Ideal S128x128 .f32) (xr7 : Vec Ideal S1x128 .f32) (pb7 : Vec Ideal S128x128 .f32) (xr8 : Vec Ideal S1x128 .f32) (pb8 : Vec Ideal S128x128 .f32) (xr9 : Vec Ideal S1x128 .f32) (pb9 : Vec Ideal S128x128 .f32) (r q : Fin 128) :
    chunk c xr0 pb0 xr1 pb1 xr2 pb2 xr3 pb3 xr4 pb4 xr5 pb5 xr6 pb6 xr7 pb7 xr8 pb8 xr9 pb9 (ix2 r q)
      = ∑ k : Fin 128, Ideal.exp (Ideal.ofBits .f32 0x00000000#32
          - (((((((((gap (pb0 (ix2 k r)) (xr0 (ix2 (0 : Fin 1) r)) + gap (pb1 (ix2 k r)) (xr1 (ix2 (0 : Fin 1) r))) + gap (pb2 (ix2 k r)) (xr2 (ix2 (0 : Fin 1) r))) + gap (pb3 (ix2 k r)) (xr3 (ix2 (0 : Fin 1) r))) + gap (pb4 (ix2 k r)) (xr4 (ix2 (0 : Fin 1) r))) + gap (pb5 (ix2 k r)) (xr5 (ix2 (0 : Fin 1) r))) + gap (pb6 (ix2 k r)) (xr6 (ix2 (0 : Fin 1) r))) + gap (pb7 (ix2 k r)) (xr7 (ix2 (0 : Fin 1) r))) + gap (pb8 (ix2 k r)) (xr8 (ix2 (0 : Fin 1) r))) + gap (pb9 (ix2 k r)) (xr9 (ix2 (0 : Fin 1) r)))) * c (ix2 k q) := by
  unfold chunk
  simp only [matmul]
  rw [Ideal.matmul_constant_zero_apply, ← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  have el : dot_S128x128_S128x128_S128x128_0_0_1_1_n_n.lhsIdx (ix2 r q) ((contrEquiv1 dot_S128x128_S128x128_S128x128_0_0_1_1_n_n 128 rfl rfl).symm k) = ix2 k r := funext fun a => Fin.ext (by
    match a with
    | ⟨0, _⟩ => exact (lhs_axis0 _ _).trans hk
    | ⟨1, _⟩ => exact lhs_axis1 _ _)
  have er : dot_S128x128_S128x128_S128x128_0_0_1_1_n_n.rhsIdx (ix2 r q) ((contrEquiv1 dot_S128x128_S128x128_S128x128_0_0_1_1_n_n 128 rfl rfl).symm k) = ix2 k q := funext fun a => Fin.ext (by
    match a with
    | ⟨0, _⟩ => exact (rhs_axis0 _ _).trans hk
    | ⟨1, _⟩ => exact rhs_axis1 _ _)
  rw [el, er]
  refine congrArg (· * c (ix2 k q)) ?_
  show Ideal.exp (Ideal.ofBits .f32 0x00000000#32 - (((((((((term xr0 pb0 (ix2 k r) + term xr1 pb1 (ix2 k r)) + term xr2 pb2 (ix2 k r)) + term xr3 pb3 (ix2 k r)) + term xr4 pb4 (ix2 k r)) + term xr5 pb5 (ix2 k r)) + term xr6 pb6 (ix2 k r)) + term xr7 pb7 (ix2 k r)) + term xr8 pb8 (ix2 k r)) + term xr9 pb9 (ix2 k r))) = _
  simp only [term_apply]

end Cert.KernelIdeal.Chunk

end
-- ==== Proof.Block.lean ====
/-
  What the kernel body leaves in its 4096 × 128 output block, as ONE function of the three input blocks.

  The body works through the block in 32 chunks of 128 rows.  Chunk j reads, for each coordinate d, the 1 × 128 row
  of the points' block at (d, 128·j) and the 128 × 128 tile of the grid table at row 128·d, builds the chunk's tile
  (`Chunk.chunk`) and stores it at rows 128·j … 128·j + 127.  So row R of the block depends on column R of the points'
  block, on lane R mod 128 of the grid table, and on c:

      block(R, q) = ∑ₖ exp (0 − ∑_d |tbl(128·d + k, R mod 128) − pts(d, R)|) · c(k, q).

  The 32 stores tile the block, so its contents are the stores' payloads, each of which is this function at its rows.
-/
import proofs.«119027_g10067403342211_week1_w1_198_15_alg».proof.Proof.Gen.KernelIdeal.Frame
import proofs.«119027_g10067403342211_week1_w1_198_15_alg».proof.Proof.Chunk

set_option synthInstance.maxSize 4096
set_option maxRecDepth 16384

noncomputable section

namespace Cert.KernelIdeal.Block

open Cert.KernelIdeal Cert.KernelIdeal.Gen Cert.KernelIdeal.Chunk Idealize.ShloMosaic Idealize.ShloMosaic.ValueIdx Cert.Tmk

/-- Row 128·d + k of the grid table: coordinate d of grid point k. -/
def gridRow (d : Fin 10) (k : Fin 128) : Fin 1280 := ⟨d.val * 128 + k.val, by have := d.isLt; have := k.isLt; omega⟩

/-- The lane a row of the block is computed in. -/
def lane (R : Fin 4096) : Fin 128 := ⟨R.val % 128, Nat.mod_lt _ (by decide)⟩

/-- The block's entry at row R and column q. -/
def blockAt (x0 : Vec Ideal S10x4096 .f32) (x1 : Vec Ideal S1280x128 .f32) (x2 : Vec Ideal S128x128 .f32)
    (R : Fin 4096) (q : Fin 128) : EReal :=
  ∑ k : Fin 128, Ideal.exp (Ideal.ofBits .f32 0x00000000#32
      - (((((((((gap (x1 (ix2 (gridRow 0 k) (lane R))) (x0 (ix2 (0 : Fin 10) R)) + gap (x1 (ix2 (gridRow 1 k) (lane R))) (x0 (ix2 (1 : Fin 10) R))) + gap (x1 (ix2 (gridRow 2 k) (lane R))) (x0 (ix2 (2 : Fin 10) R))) + gap (x1 (ix2 (gridRow 3 k) (lane R))) (x0 (ix2 (3 : Fin 10) R))) + gap (x1 (ix2 (gridRow 4 k) (lane R))) (x0 (ix2 (4 : Fin 10) R))) + gap (x1 (ix2 (gridRow 5 k) (lane R))) (x0 (ix2 (5 : Fin 10) R))) + gap (x1 (ix2 (gridRow 6 k) (lane R))) (x0 (ix2 (6 : Fin 10) R))) + gap (x1 (ix2 (gridRow 7 k) (lane R))) (x0 (ix2 (7 : Fin 10) R))) + gap (x1 (ix2 (gridRow 8 k) (lane R))) (x0 (ix2 (8 : Fin 10) R))) + gap (x1 (ix2 (gridRow 9 k) (lane R))) (x0 (ix2 (9 : Fin 10) R)))) * x2 (ix2 k q)

/-- The whole block. -/
def blockVal (x0 : Vec Ideal S10x4096 .f32) (x1 : Vec Ideal S1280x128 .f32) (x2 : Vec Ideal S128x128 .f32) :
    Vec Ideal S4096x128 .f32 := fun y => blockAt x0 x1 x2 (y 0) (y 1)

/-- The matrix c is loaded whole. -/
theorem ld_c (x2 : Vec Ideal S128x128 .f32) (inb : ∀ a, (![0, 0] : Fin 2 → Nat) a + S128x128.size a ≤ S128x128.size a)
    (k q : Fin 128) : View.ld x2 (Rect.unit (s := S128x128) ![0, 0] S128x128.size inb) (ix2 k q) = x2 (ix2 k q) :=
  congrArg x2 (funext fun a => Fin.ext (by
    match a with
    | ⟨0, _⟩ => show 0 + 1 * k.val = k.val; omega
    | ⟨1, _⟩ => show 0 + 1 * q.val = q.val; omega))

/-- The row of point coordinates d loaded at column offset o, read at r: the points' block at (d, o + r). -/
theorem ld_point (x0 : Vec Ideal S10x4096 .f32) (d : Fin 10) (dn : Nat) (hd : dn = d.val) (o : Nat)
    (inb : ∀ a, (![dn, o] : Fin 2 → Nat) a + S1x128.size a ≤ S10x4096.size a) (r : Fin 128) (hlt : o + r.val < 4096) :
    View.ld x0 (Rect.unit (s := S10x4096) ![dn, o] S1x128.size inb) (ix2 (0 : Fin 1) r) = x0 (ix2 d (⟨o + r.val, hlt⟩ : Fin 4096)) := by
  subst hd
  exact congrArg x0 (funext fun a => Fin.ext (by
    match a with
    | ⟨0, _⟩ => show d.val + 1 * 0 = d.val; omega
    | ⟨1, _⟩ => show o + 1 * r.val = o + r.val; omega))

/-- The grid tile of coordinate d loaded at row offset 128·d, read at (k, r): the table at (128·d + k, r), and r is
    the lane of block row o + r when o is a multiple of 128. -/
theorem ld_grid (x1 : Vec Ideal S1280x128 .f32) (d : Fin 10) (off : Nat) (hoff : off = d.val * 128)
    (inb : ∀ a, (![off, 0] : Fin 2 → Nat) a + S128x128.size a ≤ S1280x128.size a) (k r : Fin 128) (o : Nat) (ho : o % 128 = 0)
    (hlt : o + r.val < 4096) :
    View.ld x1 (Rect.unit (s := S1280x128) ![off, 0] S128x128.size inb) (ix2 k r) = x1 (ix2 (gridRow d k) (lane ⟨o + r.val, hlt⟩)) := by
  subst hoff
  exact congrArg x1 (funext fun a => Fin.ext (by
    match a with
    | ⟨0, _⟩ => show d.val * 128 + 1 * k.val = d.val * 128 + k.val; omega
    | ⟨1, _⟩ => show 0 + 1 * r.val = (o + r.val) % 128; have := r.isLt; omega))

/-! The rectangles of the body's accesses lie inside their buffers. -/

theorem inb_store (o : Nat) (ho' : o + 128 ≤ 4096) :
    ∀ a, (![o, 0] : Fin 2 → Nat) a + S128x128.size a ≤ S4096x128.size a :=
  Fin.forall_fin_two.mpr ⟨ho', by show 0 + 128 ≤ 128; omega⟩
theorem inb_row (dn : Nat) (hdn : dn + 1 ≤ 10) (o : Nat) (ho' : o + 128 ≤ 4096) :
    ∀ a, (![dn, o] : Fin 2 → Nat) a + S1x128.size a ≤ S10x4096.size a :=
  Fin.forall_fin_two.mpr ⟨hdn, ho'⟩
theorem inb_tile (off : Nat) (hoff : off + 128 ≤ 1280) :
    ∀ a, (![off, 0] : Fin 2 → Nat) a + S128x128.size a ≤ S1280x128.size a :=
  Fin.forall_fin_two.mpr ⟨hoff, by show 0 + 128 ≤ 128; omega⟩
theorem inb_c : ∀ a, (![0, 0] : Fin 2 → Nat) a + S128x128.size a ≤ S128x128.size a := by decide

/-- The chunk stored at rows o … o + 127 (o a multiple of 128), built from the loads at column offset o, is the block
    function at those rows. -/
theorem piece_eq (x0 : Vec Ideal S10x4096 .f32) (x1 : Vec Ideal S1280x128 .f32) (x2 : Vec Ideal S128x128 .f32)
    (o : Nat) (ho : o % 128 = 0) (ho' : o + 128 ≤ 4096) (x : S128x128.Idx) :
    chunk (View.ld x2 (Rect.unit (s := S128x128) ![0, 0] S128x128.size inb_c))
      (View.ld x0 (Rect.unit (s := S10x4096) ![0, o] S1x128.size (inb_row 0 (by decide) o ho'))) (View.ld x1 (Rect.unit (s := S1280x128) ![0, 0] S128x128.size (inb_tile 0 (by decide))))
      (View.ld x0 (Rect.unit (s := S10x4096) ![1, o] S1x128.size (inb_row 1 (by decide) o ho'))) (View.ld x1 (Rect.unit (s := S1280x128) ![128, 0] S128x128.size (inb_tile 128 (by decide))))
      (View.ld x0 (Rect.unit (s := S10x4096) ![2, o] S1x128.size (inb_row 2 (by decide) o ho'))) (View.ld x1 (Rect.unit (s := S1280x128) ![256, 0] S128x128.size (inb_tile 256 (by decide))))
      (View.ld x0 (Rect.unit (s := S10x4096) ![3, o] S1x128.size (inb_row 3 (by decide) o ho'))) (View.ld x1 (Rect.unit (s := S1280x128) ![384, 0] S128x128.size (inb_tile 384 (by decide))))
      (View.ld x0 (Rect.unit (s := S10x4096) ![4, o] S1x128.size (inb_row 4 (by decide) o ho'))) (View.ld x1 (Rect.unit (s := S1280x128) ![512, 0] S128x128.size (inb_tile 512 (by decide))))
      (View.ld x0 (Rect.unit (s := S10x4096) ![5, o] S1x128.size (inb_row 5 (by decide) o ho'))) (View.ld x1 (Rect.unit (s := S1280x128) ![640, 0] S128x128.size (inb_tile 640 (by decide))))
      (View.ld x0 (Rect.unit (s := S10x4096) ![6, o] S1x128.size (inb_row 6 (by decide) o ho'))) (View.ld x1 (Rect.unit (s := S1280x128) ![768, 0] S128x128.size (inb_tile 768 (by decide))))
      (View.ld x0 (Rect.unit (s := S10x4096) ![7, o] S1x128.size (inb_row 7 (by decide) o ho'))) (View.ld x1 (Rect.unit (s := S1280x128) ![896, 0] S128x128.size (inb_tile 896 (by decide))))
      (View.ld x0 (Rect.unit (s := S10x4096) ![8, o] S1x128.size (inb_row 8 (by decide) o ho'))) (View.ld x1 (Rect.unit (s := S1280x128) ![1024, 0] S128x128.size (inb_tile 1024 (by decide))))
      (View.ld x0 (Rect.unit (s := S10x4096) ![9, o] S1x128.size (inb_row 9 (by decide) o ho'))) (View.ld x1 (Rect.unit (s := S1280x128) ![1152, 0] S128x128.size (inb_tile 1152 (by decide)))) x
      = blockVal x0 x1 x2 ((Rect.unit (s := S4096x128) ![o, 0] S128x128.size (inb_store o ho')).emb x) := by
  obtain ⟨r, q, rfl⟩ : ∃ (r q : Fin 128), x = ix2 r q := ⟨x 0, x 1, eq_ix2 x⟩
  have hlt : o + r.val < 4096 := by have := r.isLt; omega
  have e0 : ((Rect.unit (s := S4096x128) ![o, 0] S128x128.size (inb_store o ho')).emb (ix2 r q)) 0 = (⟨o + r.val, hlt⟩ : Fin 4096) :=
    Fin.ext (by show o + 1 * r.val = o + r.val; omega)
  have e1 : ((Rect.unit (s := S4096x128) ![o, 0] S128x128.size (inb_store o ho')).emb (ix2 r q)) 1 = q :=
    Fin.ext (by show 0 + 1 * q.val = q.val; omega)
  rw [chunk_apply]
  show _ = blockAt x0 x1 x2 (((Rect.unit (s := S4096x128) ![o, 0] S128x128.size (inb_store o ho')).emb (ix2 r q)) 0)
    (((Rect.unit (s := S4096x128) ![o, 0] S128x128.size (inb_store o ho')).emb (ix2 r q)) 1)
  rw [e0, e1]
  unfold blockAt
  refine Finset.sum_congr rfl fun k _ => ?_
  rw [ld_c x2 _ k q,
    ld_point x0 0 0 rfl o _ r hlt, ld_grid x1 0 0 rfl _ k r o ho hlt,
    ld_point x0 1 1 rfl o _ r hlt, ld_grid x1 1 128 rfl _ k r o ho hlt,
    ld_point x0 2 2 rfl o _ r hlt, ld_grid x1 2 256 rfl _ k r o ho hlt,
    ld_point x0 3 3 rfl o _ r hlt, ld_grid x1 3 384 rfl _ k r o ho hlt,
    ld_point x0 4 4 rfl o _ r hlt, ld_grid x1 4 512 rfl _ k r o ho hlt,
    ld_point x0 5 5 rfl o _ r hlt, ld_grid x1 5 640 rfl _ k r o ho hlt,
    ld_point x0 6 6 rfl o _ r hlt, ld_grid x1 6 768 rfl _ k r o ho hlt,
    ld_point x0 7 7 rfl o _ r hlt, ld_grid x1 7 896 rfl _ k r o ho hlt,
    ld_point x0 8 8 rfl o _ r hlt, ld_grid x1 8 1024 rfl _ k r o ho hlt,
    ld_point x0 9 9 rfl o _ r hlt, ld_grid x1 9 1152 rfl _ k r o ho hlt]

/-- The body's 32 stores leave the block function in the output buffer. -/
theorem out_eq (x0 : Vec Ideal S10x4096 .f32) (x1 : Vec Ideal S1280x128 .f32) (x2 : Vec Ideal S128x128 .f32) :
    out0_3 x0 x1 x2 = blockVal x0 x1 x2 := by
  funext y
  unfold out0_3
  refine View.canon_apply_of_pieces (Val := Elt Ideal) (blockVal x0 x1 x2) _ ?_ y (cover0_3 _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro x
    exact piece_eq x0 x1 x2 _ (by decide) (by decide) x

end Cert.KernelIdeal.Block

end
-- ==== Proof.HostReads.lean ====
/-
  The two arrays the host prepares for the kernel, read at an index.

  The points are handed over transposed: xT(d, n) = x(n, d).  The grid is handed over as a lane-replicated table
  of 1280 rows and 128 lanes: the grid is transposed, given a trailing unit axis, repeated along it 128 times, and
  the first two axes are merged, so that row 128·d + k holds p(k, d) in every lane; read at row e that is
  p(e mod 128, e div 128).
-/
import proofs.«119027_g10067403342211_week1_w1_198_15_alg».proof.Proof.Gen.KernelIdeal.Frame
import Idealize.ShloMosaic.Lib.Pipeline.Value
import Idealize.ShloMosaic.Lib.StableHlo.Run
import Idealize.ShloMosaic.Lib.ValueIdx

set_option synthInstance.maxSize 4096

noncomputable section

namespace Cert.KernelIdeal.HostReads

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The array the kernel's first window is cut from is the transpose of the points. -/
theorem pointsT_eq (c : Dev nD) :
    (V m c main_v0 : S10x131072.Idx → EReal)
      = transpose S10x131072 [1, 0] (m ((c : Thread nD τ).loc main_arg0)) transposes_S131072x10_S10x131072_1_0 := by
  dsimp only [V, hostOps0]
  after_results

/-- xT(d, n) = x(n, d). -/
theorem pointsT_apply (c : Dev nD) (d : Fin 10) (n : Fin 131072) :
    (V m c main_v0 : S10x131072.Idx → EReal) (ix2 d n) = (m ((c : Thread nD τ).loc main_arg0) : S131072x10.Idx → EReal) (ix2 n d) := by
  rw [pointsT_eq]
  exact transpose_apply [1, 0] _ transposes_S131072x10_S10x131072_1_0 (ix2 d n) (ix2 n d) (fun b => by
    match b with
    | ⟨0, _⟩ => rfl
    | ⟨1, _⟩ => rfl)

/-- The array the kernel's second window is cut from: the grid transposed, given a unit axis, repeated along it, and
    flattened to 1280 rows. -/
theorem table_eq (c : Dev nD) :
    (V m c main_v4 : S1280x128.Idx → EReal)
      = shapeCast S1280x128 (broadcastInDim S10x128x128 ![0, 1, 2] bcast_S10x128x1_S10x128x128_0_1_2
          (broadcastInDim S10x128x1 ![0, 1] bcast_S10x128_S10x128x1_0_1
            (transpose S10x128 [1, 0] (m ((c : Thread nD τ).loc main_arg1)) transposes_S128x10_S10x128_1_0)))
          shapeCasts_S10x128x128_S1280x128 := by
  dsimp only [V, hostOps0]
  after_results
  rfl

/-- Row e of the table holds p(e mod 128, e div 128) in every lane. -/
theorem table_apply (c : Dev nD) (e : Fin 1280) (l : Fin 128) :
    (V m c main_v4 : S1280x128.Idx → EReal) (ix2 e l)
      = (m ((c : Thread nD τ).loc main_arg1) : S128x10.Idx → EReal)
          (ix2 (⟨e.val % 128, Nat.mod_lt _ (by decide)⟩ : Fin 128) (⟨e.val / 128, by have := e.isLt; omega⟩ : Fin 10)) := by
  have hd : e.val / 128 < 10 := by have := e.isLt; omega
  have hk : e.val % 128 < 128 := Nat.mod_lt _ (by decide)
  rw [table_eq]
  rw [shapeCast_apply _ shapeCasts_S10x128x128_S1280x128 (ix2 e l)
    (ix3 (⟨e.val / 128, hd⟩ : Fin 10) (⟨e.val % 128, hk⟩ : Fin 128) l) (by
      rw [Shape.rowMajor_val_three, Shape.rowMajor_val_two]
      show (e.val / 128 * 128 + e.val % 128) * 128 + l.val = e.val * 128 + l.val
      have := Nat.div_add_mod e.val 128
      omega)]
  rw [broadcastInDim_apply ![0, 1, 2] bcast_S10x128x1_S10x128x128_0_1_2 _
    (ix3 (⟨e.val / 128, hd⟩ : Fin 10) (⟨e.val % 128, hk⟩ : Fin 128) l)
    (ix3 (⟨e.val / 128, hd⟩ : Fin 10) (⟨e.val % 128, hk⟩ : Fin 128) (0 : Fin 1)) (fun a => by
      match a with
      | ⟨0, _⟩ => rfl
      | ⟨1, _⟩ => rfl
      | ⟨2, _⟩ => rfl)]
  rw [broadcastInDim_apply ![0, 1] bcast_S10x128_S10x128x1_0_1 _
    (ix3 (⟨e.val / 128, hd⟩ : Fin 10) (⟨e.val % 128, hk⟩ : Fin 128) (0 : Fin 1))
    (ix2 (⟨e.val / 128, hd⟩ : Fin 10) (⟨e.val % 128, hk⟩ : Fin 128)) (fun a => by
      match a with
      | ⟨0, _⟩ => rfl
      | ⟨1, _⟩ => rfl)]
  exact transpose_apply [1, 0] _ transposes_S128x10_S10x128_1_0
    (ix2 (⟨e.val / 128, hd⟩ : Fin 10) (⟨e.val % 128, hk⟩ : Fin 128))
    (ix2 (⟨e.val % 128, hk⟩ : Fin 128) (⟨e.val / 128, hd⟩ : Fin 10)) (fun b => by
      match b with
      | ⟨0, _⟩ => rfl
      | ⟨1, _⟩ => rfl)

end Cert.KernelIdeal.HostReads

end
-- ==== Proof.KValue.lean ====
/-
  The kernel's result array is `Cert.Tmk.G` of its three arguments.

  Grid point t works on points 4096·t … 4096·t + 4095: its first input block is columns 4096·t … of the transposed
  points, its second the whole lane-replicated grid table, its third the whole of c, and it writes rows
  4096·t … 4096·t + 4095 of the result.  Substituting what the host put in those arrays (xT(d, n) = x(n, d); table row
  128·d + k = p(k, d) in every lane) into the block function gives, at row R of the block,

      ∑ₖ exp (0 − ∑_d |p(k, d) − x(4096·t + R, d)|) · c(k, q)  =  G x p c (4096·t + R, q).

  The 32 blocks tile the result array: point ⌊n / 4096⌋ covers row n.
-/
import proofs.«119027_g10067403342211_week1_w1_198_15_alg».proof.Proof.Gen.KernelIdeal.Value
import proofs.«119027_g10067403342211_week1_w1_198_15_alg».proof.Proof.Block
import proofs.«119027_g10067403342211_week1_w1_198_15_alg».proof.Proof.HostReads
import proofs.«119027_g10067403342211_week1_w1_198_15_alg».proof.Proof.Spec

set_option synthInstance.maxSize 4096
set_option maxRecDepth 16384

noncomputable section

namespace Cert.KernelIdeal.KValue

open Cert.KernelIdeal Cert.KernelIdeal.Gen Cert.KernelIdeal.Block Cert.KernelIdeal.HostReads
open Idealize.ShloMosaic Idealize.ShloMosaic.TcCoe Idealize.ShloMosaic.ValueIdx Idealize.SL.Sem Cert.Tmk
open Idealize.ShloMosaic.Pipeline (Dat)

/-- Row 128·d + k of the table is grid point k … -/
theorem gridRow_mod (d : Fin 10) (k : Fin 128) :
    (⟨(gridRow d k).val % 128, Nat.mod_lt _ (by decide)⟩ : Fin 128) = k :=
  Fin.ext (by show (d.val * 128 + k.val) % 128 = k.val; have := k.isLt; omega)

/-- … and coordinate d. -/
theorem gridRow_div (d : Fin 10) (k : Fin 128) (h : (gridRow d k).val / 128 < 10) :
    (⟨(gridRow d k).val / 128, h⟩ : Fin 10) = d :=
  Fin.ext (by show (d.val * 128 + k.val) / 128 = d.val; have := k.isLt; omega)

/-- The block function of blocks that hold the points' columns from 4096·t on, the grid table and c is `G` at rows
    4096·t on. -/
theorem blockAt_eq (x0 : Vec Ideal S10x4096 .f32) (x1 : Vec Ideal S1280x128 .f32) (x2 : Vec Ideal S128x128 .f32)
    (X : S131072x10.Idx → EReal) (P : S128x10.Idx → EReal) (C : S128x128.Idx → EReal) (t : Nat) (ht : t < 32)
    (h0 : ∀ (d : Fin 10) (R : Fin 4096),
      x0 (ix2 d R) = X (ix2 (⟨t * 4096 + R.val, by have := R.isLt; omega⟩ : Fin 131072) d))
    (h1 : ∀ (e : Fin 1280) (l : Fin 128),
      x1 (ix2 e l) = P (ix2 (⟨e.val % 128, Nat.mod_lt _ (by decide)⟩ : Fin 128) (⟨e.val / 128, by have := e.isLt; omega⟩ : Fin 10)))
    (h2 : ∀ k q : Fin 128, x2 (ix2 k q) = C (ix2 k q))
    (R : Fin 4096) (q : Fin 128) :
    blockAt x0 x1 x2 R q = at_ X P C (⟨t * 4096 + R.val, by have := R.isLt; omega⟩ : Fin 131072) q := by
  have h1' : ∀ (d : Fin 10) (k l : Fin 128), x1 (ix2 (gridRow d k) l) = P (ix2 k d) := by
    intro d k l
    rw [h1 (gridRow d k) l, gridRow_mod d k, gridRow_div d k]
  unfold blockAt at_
  refine Finset.sum_congr rfl fun k _ => ?_
  rw [h2 k q]
  refine congrArg (· * C (ix2 k q)) ?_
  simp only [h0, h1']
  exact congrArg Ideal.exp (exponent_grid_first
    (fun d => X (ix2 (⟨t * 4096 + R.val, by have := R.isLt; omega⟩ : Fin 131072) d)) (fun d => P (ix2 k d)))

variable (m : (ℓ : Loc nD τ sig) → Buf (Elt Ideal) ℓ) (ρ : Dev nD → PrngReg)

/-- `G` of the three argument arrays as launched. -/
abbrev Gm (c : Dev nD) : S131072x128.Idx → EReal :=
  G (m ((c : Thread nD τ).loc main_arg0)) (m ((c : Thread nD τ).loc main_arg1)) (m ((c : Thread nD τ).loc main_arg2))

/-- The printed index maps over the grid: the points' block moves along the columns with t, the table and c stay,
    the result's block moves along the rows with t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `G` of the arguments. -/
theorem flushed_eq (c : Dev nD) (t : Fin cfg0.N) :
    (dats m 0 c).flushed 3 t = ((cfg0.win 3).blk t).view.read (Elt Ideal) (Gm m c) := by
  rw [Value.flushed3, out_eq (iblk m c 0 t) (iblk m c 1 t) (iblk m c 2 t)]
  obtain ⟨e00, e01, e10, e11, e20, e21, e30, e31⟩ := idx_facts t
  have ht : t.val < 32 := lt_of_lt_of_eq t.isLt (N_0 : cfg0.N = 32)
  funext j
  have hj0 : (j 0).val < 4096 := (j 0).isLt
  have hj1 : (j 1).val < 128 := (j 1).isLt
  have E0 : (((cfg0.win 3).blk t).view.emb j) 0 = (⟨t.val * 4096 + (j 0).val, by omega⟩ : Fin 131072) :=
    Fin.ext (by show win0_3.index t (0 : Fin 2) * 4096 + 1 * (j 0).val = t.val * 4096 + (j 0).val; rw [e30]; omega)
  have E1 : (((cfg0.win 3).blk t).view.emb j) 1 = (⟨(j 1).val, hj1⟩ : Fin 128) :=
    Fin.ext (by show win0_3.index t (1 : Fin 2) * 128 + 1 * (j 1).val = (j 1).val; rw [e31]; omega)
  show blockAt (iblk m c 0 t) (iblk m c 1 t) (iblk m c 2 t) (⟨(j 0).val, hj0⟩ : Fin 4096) (⟨(j 1).val, hj1⟩ : Fin 128)
    = at_ (m ((c : Thread nD τ).loc main_arg0)) (m ((c : Thread nD τ).loc main_arg1)) (m ((c : Thread nD τ).loc main_arg2))
        ((((cfg0.win 3).blk t).view.emb j) 0) ((((cfg0.win 3).blk t).view.emb j) 1)
  rw [E0, E1]
  refine blockAt_eq (iblk m c 0 t) (iblk m c 1 t) (iblk m c 2 t) _ _ _ t.val ht ?_ ?_ ?_ ⟨(j 0).val, hj0⟩ ⟨(j 1).val, hj1⟩
  · intro d R
    show V m c main_v0 (((cfg0.win 0).blk t).view.emb (ix2 d R)) = _
    have e : ((cfg0.win 0).blk t).view.emb (ix2 d R) = ix2 d (⟨t.val * 4096 + R.val, by have := R.isLt; omega⟩ : Fin 131072) := by
      funext a; apply Fin.ext
      match a with
      | ⟨0, _⟩ => show win0_0.index t (0 : Fin 2) * 10 + 1 * d.val = d.val; rw [e00]; omega
      | ⟨1, _⟩ => show win0_0.index t (1 : Fin 2) * 4096 + 1 * R.val = t.val * 4096 + R.val; rw [e01]; omega
    rw [e]
    exact pointsT_apply m c d _
  · intro e l
    show V m c main_v4 (((cfg0.win 1).blk t).view.emb (ix2 e l)) = _
    have ee : ((cfg0.win 1).blk t).view.emb (ix2 e l) = ix2 e l := by
      funext a; apply Fin.ext
      match a with
      | ⟨0, _⟩ => show win0_1.index t (0 : Fin 2) * 1280 + 1 * e.val = e.val; rw [e10]; omega
      | ⟨1, _⟩ => show win0_1.index t (1 : Fin 2) * 128 + 1 * l.val = l.val; rw [e11]; omega
    rw [ee]
    exact table_apply m c e l
  · intro k q
    show V m c main_arg2 (((cfg0.win 2).blk t).view.emb (ix2 k q)) = _
    have ee : ((cfg0.win 2).blk t).view.emb (ix2 k q) = ix2 k q := by
      funext a; apply Fin.ext
      match a with
      | ⟨0, _⟩ => show win0_2.index t (0 : Fin 2) * 128 + 1 * k.val = k.val; rw [e20]; omega
      | ⟨1, _⟩ => show win0_2.index t (1 : Fin 2) * 128 + 1 * q.val = q.val; rw [e21]; omega
    rw [ee, V_main_arg2]

/-- An index of the result array is in point t's block iff each coordinate is in the block's range on its axis. -/
theorem mem_blk (t : Fin cfg0.N) (i : S131072x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v5).slice (win0_3.rect t)).set ↔ _
  rw [View.set_slice_whole, Rect.mem_set_unit]
  exact Iff.rfl

/-- Every row of the result is in some point's block: row n in point ⌊n / 4096⌋'s. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 32 := N_0
  have hq : (i 0).val / 4096 < cfg0.N := by rw [hN]; omega
  obtain ⟨-, -, -, -, -, -, e30, e31⟩ := idx_facts ⟨(i 0).val / 4096, hq⟩
  refine ⟨⟨(i 0).val / 4096, hq⟩, flush0_3 _, ?_⟩
  rw [mem_blk]
  intro a
  match a with
  | ⟨0, _⟩ =>
    show win0_3.index ⟨(i 0).val / 4096, hq⟩ (0 : Fin 2) * 4096 ≤ (i 0).val
      ∧ (i 0).val < win0_3.index ⟨(i 0).val / 4096, hq⟩ (0 : Fin 2) * 4096 + 4096
    rw [e30]
    show (i 0).val / 4096 * 4096 ≤ (i 0).val ∧ (i 0).val < (i 0).val / 4096 * 4096 + 4096
    omega
  | ⟨1, _⟩ =>
    show win0_3.index ⟨(i 0).val / 4096, hq⟩ (1 : Fin 2) * 128 ≤ (i 1).val
      ∧ (i 1).val < win0_3.index ⟨(i 0).val / 4096, hq⟩ (1 : Fin 2) * 128 + 128
    rw [e31]
    omega

/-- The result array after the run. -/
theorem final (c : Dev nD) : (dats m 0 c).arrAt 3 cfg0.N = Gm m c :=
  (dats m 0 c).arrAt_eq_of_cover 3 (Gm m c) (fun t _ => flushed_eq m c t) cover

/-- The kernel's run: the result array ends at `G` of the arguments, the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.RefValue.lean ====
/-
  The reference, read index by index, is the function `Cert.Tmk.G` of its three arguments.

  The reference broadcasts the points and the grid to a 131072 × 128 × 10 array of differences x(n, d) − p(k, d),
  takes absolute values, sums the last axis onto zero, negates, divides by one, exponentiates, and multiplies by c
  with a plain matrix product over k.  Read at (n, q) that is ∑ₖ exp (−‖xₙ − pₖ‖₁) · c(k, q).
-/
import proofs.«119027_g10067403342211_week1_w1_198_15_alg».proof.Proof.Gen.ReferenceIdeal.Read
import proofs.«119027_g10067403342211_week1_w1_198_15_alg».proof.Proof.Spec

noncomputable section

namespace Cert.ReferenceIdeal.RefValue

open Cert.ReferenceIdeal Cert.ReferenceIdeal.Gen Cert.ReferenceIdeal.Read Idealize.ShloMosaic
open Idealize.ShloMosaic.ValueIdx Cert.Tmk

/-- One entry of the array of absolute differences: |x(n, d) − p(k, d)|. -/
theorem abs_diff_apply (x0 : (⟨S131072x10, .f32⟩ : BufTy).Contents (Elt Ideal)) (x1 : (⟨S128x10, .f32⟩ : BufTy).Contents (Elt Ideal))
    (n : Fin 131072) (q k : Fin 128) (d : Fin 10) :
    val_main_v5 (F := Ideal) x0 x1 (idx_main_v6 (lidx_main_v11 (ix2 n q) k) d) = gap (x0 (ix2 n d)) (x1 (ix2 k d)) := by
  rw [val_main_v5_apply, val_main_v4_apply, val_main_v2_apply, val_main_v3_apply, val_main_v0_apply, val_main_v1_apply]
  have e0 : idx_main_v0 (idx_main_v2 (idx_main_v6 (lidx_main_v11 (ix2 n q) k) d)) = ix2 n d :=
    funext fun a => Fin.ext (by match a with | ⟨0, _⟩ => rfl | ⟨1, _⟩ => rfl)
  have e1 : idx_main_v1 (idx_main_v3 (idx_main_v6 (lidx_main_v11 (ix2 n q) k) d)) = ix2 k d :=
    funext fun a => Fin.ext (by match a with | ⟨0, _⟩ => rfl | ⟨1, _⟩ => rfl)
  rw [e0, e1]
  rfl

/-- The reference's result array is `G` of the arguments. -/
theorem result_eq (x0 : (⟨S131072x10, .f32⟩ : BufTy).Contents (Elt Ideal)) (x1 : (⟨S128x10, .f32⟩ : BufTy).Contents (Elt Ideal))
    (x2 : (⟨S128x128, .f32⟩ : BufTy).Contents (Elt Ideal)) :
    val_main_v11 (F := Ideal) x0 x1 x2 = G x0 x1 x2 := by
  funext i
  obtain ⟨n, q, rfl⟩ : ∃ (n : Fin 131072) (q : Fin 128), i = ix2 n q := ⟨i 0, i 1, eq_ix2 i⟩
  rw [val_main_v11_apply, G_ix2]
  unfold at_
  refine Finset.sum_congr rfl fun k _ => ?_
  have er : ridx_main_v11 (ix2 n q) k = ix2 k q :=
    funext fun a => Fin.ext (by match a with | ⟨0, _⟩ => rfl | ⟨1, _⟩ => rfl)
  rw [er]
  refine congrArg (· * x2 (ix2 k q)) ?_
  rw [val_main_v10_apply, val_main_v9_apply, val_main_v7_apply, val_main_v8_apply, val_main_cst_0_apply,
    val_main_v6_apply, val_main_cst_apply]
  simp only [abs_diff_apply]
  exact congrArg Ideal.exp (exponent_point_first (fun d => x0 (ix2 n d)) (fun d => x1 (ix2 k d)))

end Cert.ReferenceIdeal.RefValue

end
-- ==== Proof.lean ====
/-
  The kernel computes  out = exp (−‖x − p‖₁) · c  — the product Laplace kernel between 131072 points and 128 grid
  points of ten coordinates, multiplied by a 128 × 128 matrix — and so does the reference; on the extended reals
  the two results are equal entry by entry.

  The kernel works on 4096 points per grid step, in 32 chunks of 128: it builds the kernel-matrix tile transposed,
  exp (0 − ∑_d |p − x|) with the ten terms added one after the other, from a transposed copy of the points and a
  lane-replicated table of the grid, and contracts the tile's first axis against c.  The reference forms all
  differences x − p at once, sums their absolute values over the coordinates, negates, divides by the length scale
  one, exponentiates and multiplies by c.  Both are  ∑ₖ exp (−∑_d |x(n, d) − p(k, d)|) · c(k, q)  (`Cert.Tmk.G`):
  |a − b| = |b − a| on all of the extended reals, a sum of ten terms does not depend on its bracketing, 0 − s = −s
  and s / 1 = s; no finiteness of the inputs is used.

  Spec: the function and the laws.  RefValue: the reference is that function.  Chunk: one chunk of the kernel body at
  an index.  Block: the body's 32 stores as one function of the input blocks.  HostReads: the transposed points and the
  grid table at an index.  KValue: the kernel's result array is that function.  The statement that the idealized kernel
  is the kernel's idealization has no conjunct here (Defs.lean states it as `True`: no operation was rewritten).
-/
import proofs.«119027_g10067403342211_week1_w1_198_15_alg».proof.Defs
import proofs.«119027_g10067403342211_week1_w1_198_15_alg».proof.Proof.Gen.Kernel
import proofs.«119027_g10067403342211_week1_w1_198_15_alg».proof.Proof.Gen.Kernel.Frame
import proofs.«119027_g10067403342211_week1_w1_198_15_alg».proof.Proof.Gen.KernelIdeal
import proofs.«119027_g10067403342211_week1_w1_198_15_alg».proof.Proof.Gen.KernelIdeal.Frame
import proofs.«119027_g10067403342211_week1_w1_198_15_alg».proof.Proof.Gen.ReferenceIdeal
import proofs.«119027_g10067403342211_week1_w1_198_15_alg».proof.Proof.Gen.Pre_finite_inputs
import proofs.«119027_g10067403342211_week1_w1_198_15_alg».proof.Proof.Gen.ReferenceIdeal.Run
import proofs.«119027_g10067403342211_week1_w1_198_15_alg».proof.Proof.Gen.ReferenceIdeal.Read
import proofs.«119027_g10067403342211_week1_w1_198_15_alg».proof.Proof.KValue
import proofs.«119027_g10067403342211_week1_w1_198_15_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `G` of the arguments in their result arrays. -/
theorem algebraic : Cert.algebraic_KernelIdeal_ReferenceIdeal := by
  intro m ρ m' ρ' _ hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
